-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S50000x256 : Shape := ⟨2, ![50000, 256]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg0 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg0 main_v34
  let main_c_13 : IVec S_ 1 := constantI S_ 1 1#1
  let main_v36 : IVec S_ 1 := (fun x v => Host.reduce IntOp.andi x v reducesTo_S100000_S_d0 h_S_) main_v35 main_c_13
  let main_v37 : IVec S_ 1 := andi main_v33 main_v36
  let main_c_14 : IVec S_ 32 := constantI S_ 32 50000#32
  let main_v38 : IVec S100000 32 := broadcastInDim S100000 ![] bcast_S_S100000 main_c_14
  let main_v39 : IVec S100000 1 := cmpi .slt main_arg0 main_v38
  let main_c_15 : IVec S_ 1 := constantI S_ 1 1#1
  let main_v40 : IVec S_ 1 := (fun x v => Host.reduce IntOp.andi x v reducesTo_S100000_S_d0 h_S_) main_v39 main_c_15
  let main_v41 : IVec S_ 1 := andi main_v37 main_v40
  main_v41

def fn_part1 {F : FTy → Type} [FloatOps F] (main_arg0 : IVec S100000 32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_v33

def fn {F : FTy → Type} [FloatOps F] (main_arg0 : IVec S100000 32) (main_arg1 : IVec S2x1600000 32) (main_arg2 : FVec F S50000x256 .f32) (main_arg3 : FVec F S128x256 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x256 .f32 := Host.absf main_arg2
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg6 main_arg7 main_arg8 main_v13 main_v16
-- ==== Kernel.lean ====
abbrev S100000 : Shape := ⟨1, ![100000]⟩
abbrev S2x1600000 : Shape := ⟨2, ![2, 1600000]⟩
abbrev S50000x256 : Shape := ⟨2, ![50000, 256]⟩
abbrev S128x256 : Shape := ⟨2, ![128, 256]⟩
abbrev S128 : Shape := ⟨1, ![128]⟩
abbrev S128x128 : Shape := ⟨2, ![128, 128]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x256 : Shape := ⟨2, ![100000, 256]⟩
abbrev S256x128 : Shape := ⟨2, ![256, 128]⟩
abbrev S100000x128 : Shape := ⟨2, ![100000, 128]⟩
abbrev S4000x256 : Shape := ⟨2, ![4000, 256]⟩
abbrev S4000x128 : Shape := ⟨2, ![4000, 128]⟩
abbrev S1x128 : Shape := ⟨2, ![1, 128]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩

abbrev nBuf : Space → Nat
  | .hbm => 112
  | .vmem => 30
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S50000x256, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S1, .i32⟩
  | .hbm, ⟨18, _⟩ => ⟨S_, .i32⟩
  | .hbm, ⟨19, _⟩ => ⟨S100000x1, .i32⟩
  | .hbm, ⟨20, _⟩ => ⟨S100000x1, .i1⟩
  | .hbm, ⟨21, _⟩ => ⟨S1x1, .i32⟩
  | .hbm, ⟨22, _⟩ => ⟨S100000x1, .i32⟩
  | .hbm, ⟨23, _⟩ => ⟨S100000x1, .i1⟩
  | .hbm, ⟨24, _⟩ => ⟨S100000x1, .i1⟩
  | .hbm, ⟨25, _⟩ => ⟨S_, .i1⟩
  | .hbm, ⟨26, _⟩ => ⟨S100000, .i1⟩
  | .hbm, ⟨27, _⟩ => ⟨S100000x256, .f32⟩
  | .hbm, ⟨28, _⟩ => ⟨S100000x256, .i1⟩
  | .hbm, ⟨29, _⟩ => ⟨S_, .f32⟩
  | .hbm, ⟨30, _⟩ => ⟨S100000x256, .f32⟩
  | .hbm, ⟨31, _⟩ => ⟨S100000x256, .f32⟩
  | .hbm, ⟨32, _⟩ => ⟨S256x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000, .i32⟩
  | .hbm, ⟨37, _⟩ => ⟨S1x1600000, .i32⟩
  | .hbm, ⟨38, _⟩ => ⟨S1600000, .i32⟩
  | .hbm, ⟨39, _⟩ => ⟨S1700000, .i32⟩
  | .hbm, ⟨40, _⟩ => ⟨S1x1600000, .i32⟩
  | .hbm, ⟨41, _⟩ => ⟨S1600000, .i32⟩
  | .hbm, ⟨42, _⟩ => ⟨S1700000, .i32⟩
  | .hbm, ⟨43, _⟩ => ⟨S_, .f32⟩
  | .hbm, ⟨44, _⟩ => ⟨S1700000, .f32⟩
  | .hbm, ⟨45, _⟩ => ⟨S_, .f32⟩
  | .hbm, ⟨46, _⟩ => ⟨S100000, .f32⟩
  | .hbm, ⟨47, _⟩ => ⟨S1700000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000, .f32⟩
  | .hbm, ⟨71, _⟩ => ⟨S1700000, .f32⟩
  | .hbm, ⟨72, _⟩ => ⟨S128x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S128x128, .f32⟩
  | .hbm, ⟨93, _⟩ => ⟨S100000x128, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x128, .f32⟩
  | .hbm, ⟨103, _⟩ => ⟨S1700000x1, .f32⟩
  | .hbm, ⟨104, _⟩ => ⟨S1700000x128, .f32⟩
  | .hbm, ⟨105, _⟩ => ⟨S1700000x128, .f32⟩
  | .hbm, ⟨106, _⟩ => ⟨S_, .f32⟩
  | .hbm, ⟨107, _⟩ => ⟨S100000x128, .f32⟩
  | .hbm, ⟨108, _⟩ => ⟨S1700000x1, .i32⟩
  | .hbm, ⟨109, _⟩ => ⟨S100000x128, .f32⟩
  | .hbm, ⟨110, _⟩ => ⟨S1x128, .f32⟩
  | .hbm, ⟨111, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst : Ref sig .tc := ⟨.hbm, 43, rfl⟩
abbrev main_v12 : Ref sig .tc := ⟨.hbm, 44, rfl⟩
abbrev main_cst_0 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_1 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c : Ref sig .tc := ⟨.hbm, 53, rfl⟩
abbrev main_v19 : Ref sig .tc := ⟨.hbm, 54, rfl⟩
abbrev main_v20 : Ref sig .tc := ⟨.hbm, 55, rfl⟩
abbrev main_c_2 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_3 : Ref sig .tc := ⟨.hbm, 62, rfl⟩
abbrev main_v26 : Ref sig .tc := ⟨.hbm, 63, rfl⟩
abbrev main_v27 : Ref sig .tc := ⟨.hbm, 64, rfl⟩
abbrev main_c_4 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_c_5 : Ref sig .tc := ⟨.hbm, 74, rfl⟩
abbrev main_v36 : Ref sig .tc := ⟨.hbm, 75, rfl⟩
abbrev main_v37 : Ref sig .tc := ⟨.hbm, 76, rfl⟩
abbrev main_c_6 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_7 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_c_8 : Ref sig .tc := ⟨.hbm, 94, rfl⟩
abbrev main_v53 : Ref sig .tc := ⟨.hbm, 95, rfl⟩
abbrev main_v54 : Ref sig .tc := ⟨.hbm, 96, rfl⟩
abbrev main_c_9 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_10 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x256_0 : S100000.BroadcastsInDim S100000x256 (![0] : Fin 1 → Fin S100000x256.rank)
  bcast_S_S100000x256 : S_.BroadcastsInDim S100000x256 (![] : Fin 0 → Fin S100000x256.rank)
  transposes_S128x256_S256x128_1_0 : S128x256.Transposes [1, 0] S256x128
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x128_S4000x128_0_0 : ∀ a, (![0, 0] : Fin 2 → Nat) a + S4000x128.size a ≤ S4000x128.size a
  h_S4000x128 : 0 < S4000x128.numel
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  gather_S50000x256_S100000x1_S100000x256_1_0_n_n_0_1_1256_wf : GatherDims.WF S50000x256 S100000x1 S100000x256 [1] [0] [] [0] [] 1 ![1, 256]
  dot_S4000x256_S256x128_S4000x128_1_0_0_1_n_n_wf : DotDims.WF S4000x256 S256x128 S4000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)

variable [Facts₀]

def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_v0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v65) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000 : Shape := ⟨1, ![100000]⟩
abbrev S2x1600000 : Shape := ⟨2, ![2, 1600000]⟩
abbrev S50000x256 : Shape := ⟨2, ![50000, 256]⟩
abbrev S128x256 : Shape := ⟨2, ![128, 256]⟩
abbrev S128 : Shape := ⟨1, ![128]⟩
abbrev S128x128 : Shape := ⟨2, ![128, 128]⟩
abbrev S_ : Shape := ⟨0, ![]⟩
abbrev S100000x1 : Shape := ⟨2, ![100000, 1]⟩
abbrev S100000x256 : Shape := ⟨2, ![100000, 256]⟩
abbrev S256x128 : Shape := ⟨2, ![256, 128]⟩
abbrev S100000x128 : Shape := ⟨2, ![100000, 128]⟩
abbrev S1x128 : Shape := ⟨2, ![1, 128]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩

abbrev nBuf : Space → Nat
  | .hbm => 104
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S50000x256, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x256, .f32⟩
  | .hbm, ⟨18, _⟩ => ⟨S256x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S100000, .i32⟩
  | .hbm, ⟨24, _⟩ => ⟨S1x1600000, .i32⟩
  | .hbm, ⟨25, _⟩ => ⟨S1600000, .i32⟩
  | .hbm, ⟨26, _⟩ => ⟨S1700000, .i32⟩
  | .hbm, ⟨27, _⟩ => ⟨S1x1600000, .i32⟩
  | .hbm, ⟨28, _⟩ => ⟨S1600000, .i32⟩
  | .hbm, ⟨29, _⟩ => ⟨S1700000, .i32⟩
  | .hbm, ⟨30, _⟩ => ⟨S_, .f32⟩
  | .hbm, ⟨31, _⟩ => ⟨S1700000, .f32⟩
  | .hbm, ⟨32, _⟩ => ⟨S_, .f32⟩
  | .hbm, ⟨33, _⟩ => ⟨S100000, .f32⟩
  | .hbm, ⟨34, _⟩ => ⟨S1700000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000, .f32⟩
  | .hbm, ⟨58, _⟩ => ⟨S1700000, .f32⟩
  | .hbm, ⟨59, _⟩ => ⟨S128x128, .f32⟩
  | .hbm, ⟨60, _⟩ => ⟨S100000x128, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x1, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x128, .f32⟩
  | .hbm, ⟨94, _⟩ => ⟨S1700000x1, .f32⟩
  | .hbm, ⟨95, _⟩ => ⟨S1700000x128, .f32⟩
  | .hbm, ⟨96, _⟩ => ⟨S1700000x128, .f32⟩
  | .hbm, ⟨97, _⟩ => ⟨S_, .f32⟩
  | .hbm, ⟨98, _⟩ => ⟨S100000x128, .f32⟩
  | .hbm, ⟨99, _⟩ => ⟨S1700000x1, .i32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call0_cst : Ref sig .tc := ⟨.hbm, 80, rfl⟩
abbrev main_call0_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_10 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  gather_S50000x256_S100000x1_S100000x256_1_0_n_n_0_1_1256_wf : GatherDims.WF S50000x256 S100000x1 S100000x256 [1] [0] [] [0] [] 1 ![1, 256]
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The dense steps of the two-layer graph convolution, as functions on whole arrays of extended reals.

  A node's features are a row of 256 (after the embedding lookup) or 128 numbers. The network applies to
  the rows a weight matrix (`proj256`, `proj128`: entry (r, c) of the product is the sum over k of
  A[r, k] · B[k, c]) and adds a bias vector to every row, once followed by the positive part
  (`addBias`, `addBiasRelu`). Nothing here mentions a program: both programs' dense steps are shown
  equal to these functions, each from its own side.
-/
import Idealize.ShloMosaic.PureOps.Ideal
import Idealize.ShloMosaic.Lib.ValueIdx

noncomputable section

open scoped BigOperators

namespace Cert.GcnSpec

open Idealize.ShloMosaic Idealize.ShloMosaic.ValueIdx

abbrev Rows256 : Shape := ⟨2, ![100000, 256]⟩
abbrev Rows128 : Shape := ⟨2, ![100000, 128]⟩
abbrev W256 : Shape := ⟨2, ![256, 128]⟩
abbrev W128 : Shape := ⟨2, ![128, 128]⟩
abbrev Bias : Shape := ⟨1, ![128]⟩

/-- Rows of 256 features times a 256 × 128 matrix: entry (r, c) is the sum over k of A[r, k] · B[k, c]. -/
def proj256 (A : Rows256.Idx → EReal) (B : W256.Idx → EReal) : Rows128.Idx → EReal :=
  fun i => ∑ k : Fin 256, A (ix2 (⟨(i 0).val, (i 0).isLt⟩ : Fin 100000) k) * B (ix2 k (⟨(i 1).val, (i 1).isLt⟩ : Fin 128))

/-- Rows of 128 features times a 128 × 128 matrix: entry (r, c) is the sum over k of A[r, k] · B[k, c]. -/
def proj128 (A : Rows128.Idx → EReal) (B : W128.Idx → EReal) : Rows128.Idx → EReal :=
  fun i => ∑ k : Fin 128, A (ix2 (⟨(i 0).val, (i 0).isLt⟩ : Fin 100000) k) * B (ix2 k (⟨(i 1).val, (i 1).isLt⟩ : Fin 128))

/-- A bias vector added to every row: entry (r, c) is X[r, c] + b[c]. -/
def addBias (X : Rows128.Idx → EReal) (b : Bias.Idx → EReal) : Rows128.Idx → EReal :=
  fun i => X i + b (ix1 (⟨(i 1).val, (i 1).isLt⟩ : Fin 128))

/-- The same followed by the positive part: entry (r, c) is max (X[r, c] + b[c]) 0. -/
def addBiasRelu (X : Rows128.Idx → EReal) (b : Bias.Idx → EReal) : Rows128.Idx → EReal :=
  fun i => max (X i + b (ix1 (⟨(i 1).val, (i 1).isLt⟩ : Fin 128))) 0

abbrev Row : Shape := ⟨2, ![1, 128]⟩

/-- The bias kept as a one-row matrix: entry (r, c) is X[r, c] + B[0, c]. -/
def addRow (X : Rows128.Idx → EReal) (B : Row.Idx → EReal) : Rows128.Idx → EReal :=
  fun i => X i + B (ix2 (0 : Fin 1) (⟨(i 1).val, (i 1).isLt⟩ : Fin 128))

/-- The same followed by the positive part. -/
def addRowRelu (X : Rows128.Idx → EReal) (B : Row.Idx → EReal) : Rows128.Idx → EReal :=
  fun i => max (X i + B (ix2 (0 : Fin 1) (⟨(i 1).val, (i 1).isLt⟩ : Fin 128))) 0

/-- A one-row matrix whose row is the vector `b` adds as `b` does. -/
theorem addRow_eq_addBias (X : Rows128.Idx → EReal) (B : Row.Idx → EReal) (b : Bias.Idx → EReal)
    (h : ∀ q : Fin 128, B (ix2 (0 : Fin 1) q) = b (ix1 q)) : addRow X B = addBias X b :=
  funext fun i => by unfold addRow addBias; rw [h]

theorem addRowRelu_eq_addBiasRelu (X : Rows128.Idx → EReal) (B : Row.Idx → EReal) (b : Bias.Idx → EReal)
    (h : ∀ q : Fin 128, B (ix2 (0 : Fin 1) q) = b (ix1 q)) : addRowRelu X B = addBiasRelu X b :=
  funext fun i => by unfold addRowRelu addBiasRelu; rw [h]

end Cert.GcnSpec

end
-- ==== Proof.Dense0.lean ====
/-
  The first projection: what the kernel's first call leaves in its output array.

  The call walks the 100000 rows in 25 blocks of 4000. At each block its body multiplies the block of rows
  (4000 × 256) by the whole weight matrix (256 × 128) into a zero accumulator; the format changes on the way
  are the identity on extended reals. So entry (p, q) of the block's result is the sum over k of
  rows[p, k] · weights[k, q], which is the same entry of `GcnSpec.proj256` of the two whole arrays read
  through the block; the 25 blocks tile the array, so the array ends holding `proj256`.
-/
import proofs.«428785_j38972533244082_1_alg».proof.Proof.Gen.KernelIdeal.Frame
import proofs.«428785_j38972533244082_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense0

open Cert.KernelIdeal Cert.KernelIdeal.Gen Idealize.ShloMosaic Idealize.ShloMosaic.TcCoe Idealize.SL.Sem
open Idealize.ShloMosaic.ValueIdx Idealize.ShloMosaic.Pipeline

/-! ## The body's product at an entry -/

theorem lhs_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Entry (p, q) of the body's result block: the sum over k of rows[p, k] · weights[k, q]. -/
theorem pay_apply (x0 : FVec Ideal S4000x256 .f32) (x1 : FVec Ideal S256x128 .f32) (p : Fin 4000) (q : Fin 128) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ => exact lhs_0 _ _
    | ⟨1, _⟩ => exact (lhs_1 _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (rhs_0 _ _).trans hk
    | ⟨1, _⟩ => exact rhs_1 _ _)
  rw [el, er, shapeCast_self, shapeCast_self]
  rfl

/-! ## What a block writes back -/

variable (V : (c : Dev nD) → (b : Ref sig .tc) → Buf (Elt Ideal) ((c : Thread nD τ).loc b))

theorem hz : (![0, 0] : Fin 2 → Nat) = fun _ => 0 := funext fun a => by fin_cases a <;> rfl

/-- The call's index maps over its 25 points: rows block `t` for the rows and the result, the one block of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed_eq (c : Dev nD) (t : Fin cfg0.N) :
    (dat0 V c).flushed 2 t = ((cfg0.win 2).blk t).view.read (Elt Ideal) (GcnSpec.proj256 (V c main_v0) (V c main_v1)) := by
  show (cfg0.win 2).cut (grid0.coords t) ((dat0 V c).after 2 t) = _
  rw [after0_2]
  unfold out0_2
  rw [View.canon_unit_zero hz]
  simp only [View.ld_unit_zero (S := S4000x256) hz, View.ld_unit_zero (S := S256x128) hz]
  obtain ⟨e00, e01, e10, e11, e20, e21⟩ := idx_facts t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (ix2 p q)
    = GcnSpec.proj256 (V c main_v0) (V c main_v1) (((cfg0.win 2).blk t).view.emb (ix2 p q))
  refine (pay_apply (iblk0 V c 0 t) (iblk0 V c 1 t) p q).trans ?_
  unfold GcnSpec.proj256
  refine Finset.sum_congr rfl fun k _ => ?_
  have h0 : iblk0 V c 0 t (ix2 p k)
      = V c main_v0 (ix2 (⟨((((cfg0.win 2).blk t).view.emb (ix2 p q)) 0).val, ((((cfg0.win 2).blk t).view.emb (ix2 p q)) 0).isLt⟩ : Fin 100000) k) := by
    show V c main_v0 (((cfg0.win 0).blk t).view.emb (ix2 p k)) = _
    refine congrArg (V c main_v0) (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 256 + 1 * k.val = k.val; omega
  have h1 : iblk0 V c 1 t (ix2 k q)
      = V c main_v1 (ix2 k (⟨((((cfg0.win 2).blk t).view.emb (ix2 p q)) 1).val, ((((cfg0.win 2).blk t).view.emb (ix2 p q)) 1).isLt⟩ : Fin 128)) := by
    show V c main_v1 (((cfg0.win 1).blk t).view.emb (ix2 k q)) = _
    refine congrArg (V c main_v1) (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]

/-! ## The blocks tile the array -/

/-- An index is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v2).slice (win0_2.rect t)).set ↔ _
  rw [View.set_slice_whole, Rect.mem_set_unit]
  exact Iff.rfl

/-- Row `r` lies in block `r / 4000`, and every point writes its block back. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  have ht : (i 0).val / 4000 < cfg0.N := by show (i 0).val / 4000 < grid0.N; omega
  obtain ⟨-, -, -, -, e20, e21⟩ := idx_facts ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e20]; show (i 0).val / 4000 * 4000 ≤ (i 0).val ∧ (i 0).val < (i 0).val / 4000 * 4000 + 4000; omega
  | ⟨1, _⟩ =>
    show win0_2.index ⟨(i 0).val / 4000, ht⟩ (1 : Fin 2) * 128 ≤ (i 1).val ∧ (i 1).val < win0_2.index ⟨(i 0).val / 4000, ht⟩ (1 : Fin 2) * 128 + 128
    rw [e21]; omega

/-- The array after the call: the projection of the two arrays the call found. -/
theorem final (c : Dev nD) :
    (dat0 V c).arrAt 2 cfg0.N = GcnSpec.proj256 (V c main_v0) (V c main_v1) :=
  (dat0 V c).arrAt_eq_of_cover 2 (GcnSpec.proj256 (V c main_v0) (V c main_v1)) (fun t _ => flushed_eq V c t) cover

end Cert.KernelIdeal.Dense0

end
-- ==== Proof.Bias1.lean ====
/-
  The bias call after the embedding projection (pipeline 1), from its 25 blocks to the whole array. The body stores, at row p and
  column q of a block, the rows' entry there plus the one-row operand's entry at column q (pay_apply); at grid point t
  the rows' windows sit at row-block t and the one-row window is the whole row (idx_facts), so point t writes back
  block t of GcnSpec.addRow of the two inputs (flushed_eq); row r lies in block r / 4000 (cover); hence final.
-/
import proofs.«428785_j38972533244082_1_alg».proof.Proof.Gen.KernelIdeal.Frame
import proofs.«428785_j38972533244082_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Bias1

open Cert.KernelIdeal Cert.KernelIdeal.Gen Idealize.ShloMosaic Idealize.ShloMosaic.TcCoe Idealize.SL.Sem
open Idealize.ShloMosaic.StableHlo Idealize.ShloMosaic.ValueIdx Idealize.ShloMosaic.Pipeline

variable (V : (c : Dev nD) → (b : Ref sig .tc) → Buf (Elt Ideal) ((c : Thread nD τ).loc b))

/-- The all-zero offset of a whole-block access. -/
theorem hz : (![0, 0] : Fin 2 → Nat) = fun _ => 0 := funext fun a => by fin_cases a <;> rfl

/-- Equal summands give equal sums. -/
private theorem sum_congr {a a' b b' : EReal} (ha : a = a') (hb : b = b') : a + b = a' + b' := by rw [ha, hb]

/-- The stored value at row p, column q: the block's entry there plus the single row's entry at column q. -/
theorem pay_apply (x0 : FVec Ideal S4000x128 .f32) (x1 : FVec Ideal S1x128 .f32) (p : Fin 4000) (q : Fin 128) :
    k1_pay1 (F := Ideal) x0 x1 (ix2 p q) = x0 (ix2 p q) + x1 (ix2 (0 : Fin 1) q) := by
  unfold k1_pay1
  rw [addf_apply, shapeCast_self, shapeCast_self, shapeCast_self, broadcastTo_1b_ab_apply]

/-- Where the three windows' blocks sit at grid point t: the row windows at row-block t, the one-row window
    always at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of what the body stores at grid point t is the rows' array plus the one row, read at the
    place of the output array where entry (p, q) of block t lies. -/
theorem blk_apply (c : Dev nD) (t : Fin cfg1.N) (p : Fin 4000) (q : Fin 128) :
    k1_pay1 (F := Ideal) (iblk1 V c 0 t) (iblk1 V c 1 t) (ix2 p q)
      = GcnSpec.addRow (V c main_v2) (V c main_v3) (((cfg1.win 2).blk t).view.emb (ix2 p q)) := by
  refine (pay_apply (iblk1 V c 0 t) (iblk1 V c 1 t) p q).trans ?_
  obtain ⟨e0, e1, e2, e3, e4, e5⟩ := idx_facts t
  unfold iblk1 GcnSpec.addRow
  -- the rows' block and the output's block are the same rectangle of their arrays
  have h0 : ((cfg1.win 0).blk t).view.emb (ix2 p q) = ((cfg1.win 2).blk t).view.emb (ix2 p q) := by
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 128 + 1 * q.val = win1_2.index t (1 : Fin 2) * 128 + 1 * q.val; omega
  -- the one-row window is the whole row: its column q is the output's column
  have h1 : ((cfg1.win 1).blk t).view.emb (ix2 (0 : Fin 1) q)
      = ix2 (0 : Fin 1) (⟨(((cfg1.win 2).blk t).view.emb (ix2 p q) 1).val, (((cfg1.win 2).blk t).view.emb (ix2 p q) 1).isLt⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact sum_congr (congrArg (V c main_v2) h0) (congrArg (V c main_v3) h1)

/-- What grid point t writes back is block t of the rows plus the one row. -/
theorem flushed_eq (c : Dev nD) (t : Fin cfg1.N) :
    (dat1 V c).flushed 2 t = ((cfg1.win 2).blk t).view.read (Elt Ideal) (GcnSpec.addRow (V c main_v2) (V c main_v3)) := by
  show (cfg1.win 2).cut (grid1.coords t) ((dat1 V c).after 2 t) = _
  rw [after1_2]
  unfold out1_2
  rw [View.canon_unit_zero hz]
  simp only [View.ld_unit_zero (S := S4000x128) hz, View.ld_unit_zero (S := S1x128) hz]
  refine funext fun (j : S4000x128.Idx) => ?_
  show k1_pay1 (F := Ideal) (iblk1 V c 0 t) (iblk1 V c 1 t) j
      = GcnSpec.addRow (V c main_v2) (V c main_v3) (((cfg1.win 2).blk t).view.emb j)
  rw [eq_ix2 j]
  exact blk_apply V c t (j 0) (j 1)

/-- An index of the output array lies in grid point t's block iff each coordinate lies in the block's range. -/
theorem mem_blk (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v4).slice (win1_2.rect t)).set ↔ _
  rw [View.set_slice_whole, Rect.mem_set_unit]
  exact Iff.rfl

/-- Every index of the output array lies in the block of a grid point that writes back: row r in block r / 4000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by show _ < grid1.N; rw [N_1]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- The output array after all 25 grid points: the rows plus the one row. -/
theorem final (c : Dev nD) :
    (dat1 V c).arrAt 2 cfg1.N = GcnSpec.addRow (V c main_v2) (V c main_v3) :=
  (dat1 V c).arrAt_eq_of_cover 2 (GcnSpec.addRow (V c main_v2) (V c main_v3)) (fun t _ => flushed_eq V c t) cover

end Cert.KernelIdeal.Bias1

end
-- ==== Proof.Dense2.lean ====
/-
  The first layer's projection: what the kernel's third call leaves in its output array.

  The call walks the 100000 rows in 25 blocks of 4000. At each block its body multiplies the block of rows
  (4000 × 128) by the whole weight matrix (128 × 128) into a zero accumulator; the format changes on the way
  are the identity on extended reals. So entry (p, q) of the block's result is the sum over k of
  rows[p, k] · weights[k, q], which is the same entry of `GcnSpec.proj128` of the two whole arrays read
  through the block; the 25 blocks tile the array, so the array ends holding `proj128`.
-/
import proofs.«428785_j38972533244082_1_alg».proof.Proof.Gen.KernelIdeal.Frame
import proofs.«428785_j38972533244082_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense2

open Cert.KernelIdeal Cert.KernelIdeal.Gen Idealize.ShloMosaic Idealize.ShloMosaic.TcCoe Idealize.SL.Sem
open Idealize.ShloMosaic.ValueIdx Idealize.ShloMosaic.Pipeline

/-! ## The body's product at an entry -/

theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of the body's result block: the sum over k of rows[p, k] · weights[k, q]. -/
theorem pay_apply (x0 : FVec Ideal S4000x128 .f32) (x1 : FVec Ideal S128x128 .f32) (p : Fin 4000) (q : Fin 128) :
    k2_pay1 (F := Ideal) x0 x1 (ix2 p q) = ∑ k : Fin 128, x0 (ix2 p k) * x1 (ix2 k q) := by
  unfold k2_pay1
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_0 _ _).trans hk
    | ⟨1, _⟩ => exact rhs_1 _ _)
  rw [el, er, shapeCast_self, shapeCast_self]
  rfl

/-! ## What a block writes back -/

variable (V : (c : Dev nD) → (b : Ref sig .tc) → Buf (Elt Ideal) ((c : Thread nD τ).loc b))

theorem hz : (![0, 0] : Fin 2 → Nat) = fun _ => 0 := funext fun a => by fin_cases a <;> rfl

/-- The call's index maps over its 25 points: rows block `t` for the rows and the result, the one block of the weights. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed_eq (c : Dev nD) (t : Fin cfg2.N) :
    (dat2 V c).flushed 2 t = ((cfg2.win 2).blk t).view.read (Elt Ideal) (GcnSpec.proj128 (V c main_v4) (V c main_v34)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x128) hz]
  obtain ⟨e00, e01, e10, e11, e20, e21⟩ := idx_facts t
  funext j
  obtain ⟨p, q, rfl⟩ : ∃ (p : Fin 4000) (q : Fin 128), j = ix2 p q := ⟨j 0, j 1, eq_ix2 j⟩
  show k2_pay1 (F := Ideal) (iblk2 V c 0 t) (iblk2 V c 1 t) (ix2 p q)
    = GcnSpec.proj128 (V c main_v4) (V c main_v34) (((cfg2.win 2).blk t).view.emb (ix2 p q))
  refine (pay_apply (iblk2 V c 0 t) (iblk2 V c 1 t) p q).trans ?_
  unfold GcnSpec.proj128
  refine Finset.sum_congr rfl fun k _ => ?_
  have h0 : iblk2 V c 0 t (ix2 p k)
      = V c main_v4 (ix2 (⟨((((cfg2.win 2).blk t).view.emb (ix2 p q)) 0).val, ((((cfg2.win 2).blk t).view.emb (ix2 p q)) 0).isLt⟩ : Fin 100000) k) := by
    show V c main_v4 (((cfg2.win 0).blk t).view.emb (ix2 p k)) = _
    refine congrArg (V c main_v4) (funext fun a => Fin.ext ?_)
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  have h1 : iblk2 V c 1 t (ix2 k q)
      = V c main_v34 (ix2 k (⟨((((cfg2.win 2).blk t).view.emb (ix2 p q)) 1).val, ((((cfg2.win 2).blk t).view.emb (ix2 p q)) 1).isLt⟩ : Fin 128)) := by
    show V c main_v34 (((cfg2.win 1).blk t).view.emb (ix2 k q)) = _
    refine congrArg (V c main_v34) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]

/-! ## The blocks tile the array -/

/-- An index is in point `t`'s block iff each coordinate is in the block's range on its axis. -/
theorem mem_blk (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v35).slice (win2_2.rect t)).set ↔ _
  rw [View.set_slice_whole, Rect.mem_set_unit]
  exact Iff.rfl

/-- Row `r` lies in block `r / 4000`, and every point writes its block back. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 25 := N_2
  have ht : (i 0).val / 4000 < cfg2.N := by show (i 0).val / 4000 < grid2.N; omega
  obtain ⟨-, -, -, -, e20, e21⟩ := idx_facts ⟨(i 0).val / 4000, ht⟩
  refine ⟨⟨(i 0).val / 4000, ht⟩, flush2_2 _, ?_⟩
  rw [mem_blk]
  intro a
  match a with
  | ⟨0, _⟩ =>
    show win2_2.index ⟨(i 0).val / 4000, ht⟩ (0 : Fin 2) * 4000 ≤ (i 0).val ∧ (i 0).val < win2_2.index ⟨(i 0).val / 4000, ht⟩ (0 : Fin 2) * 4000 + 4000
    rw [e20]; show (i 0).val / 4000 * 4000 ≤ (i 0).val ∧ (i 0).val < (i 0).val / 4000 * 4000 + 4000; omega
  | ⟨1, _⟩ =>
    show win2_2.index ⟨(i 0).val / 4000, ht⟩ (1 : Fin 2) * 128 ≤ (i 1).val ∧ (i 1).val < win2_2.index ⟨(i 0).val / 4000, ht⟩ (1 : Fin 2) * 128 + 128
    rw [e21]; omega

/-- The array after the call: the projection of the two arrays the call found. -/
theorem final (c : Dev nD) :
    (dat2 V c).arrAt 2 cfg2.N = GcnSpec.proj128 (V c main_v4) (V c main_v34) :=
  (dat2 V c).arrAt_eq_of_cover 2 (GcnSpec.proj128 (V c main_v4) (V c main_v34)) (fun t _ => flushed_eq V c t) cover

end Cert.KernelIdeal.Dense2

end
-- ==== Proof.Bias3.lean ====
/-
  The first graph layer's bias call with its positive part (pipeline 3), from its 25 blocks to the whole array. The body
  stores, at row p and column q of a block, the larger of 0 and the rows' entry there plus the one-row operand's entry
  at column q (pay_apply); at grid point t the rows' windows sit at row-block t and the one-row window is the whole row
  (idx_facts), so point t writes back block t of GcnSpec.addRowRelu of the two inputs (flushed_eq); row r lies in
  block r / 4000 (cover); hence final.
-/
import proofs.«428785_j38972533244082_1_alg».proof.Proof.Gen.KernelIdeal.Frame
import proofs.«428785_j38972533244082_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Bias3

open Cert.KernelIdeal Cert.KernelIdeal.Gen Idealize.ShloMosaic Idealize.ShloMosaic.TcCoe Idealize.SL.Sem
open Idealize.ShloMosaic.StableHlo Idealize.ShloMosaic.ValueIdx Idealize.ShloMosaic.Pipeline

variable (V : (c : Dev nD) → (b : Ref sig .tc) → Buf (Elt Ideal) ((c : Thread nD τ).loc b))

/-- The all-zero offset of a whole-block access. -/
theorem hz : (![0, 0] : Fin 2 → Nat) = fun _ => 0 := funext fun a => by fin_cases a <;> rfl

/-- Equal summands give equal positive parts of the sums. -/
private theorem relu_congr {a a' b b' : EReal} (ha : a = a') (hb : b = b') : max (a + b) 0 = max (a' + b') 0 := by rw [ha, hb]

/-- The stored value at row p, column q: the larger of 0 and the block's entry there plus the single row's entry
    at column q (the f32 word of all zero bits is the number 0). -/
theorem pay_apply (x0 : FVec Ideal S4000x128 .f32) (x1 : FVec Ideal S1x128 .f32) (p : Fin 4000) (q : Fin 128) :
    k3_pay1 (F := Ideal) x0 x1 (ix2 p q) = max (x0 (ix2 p q) + x1 (ix2 (0 : Fin 1) q)) 0 := by
  unfold k3_pay1
  rw [maximumf_apply, addf_apply, shapeCast_self, shapeCast_self, shapeCast_self, broadcastTo_1b_ab_apply, broadcast_apply]
  show max _ (Ideal.ofBits .f32 0x00000000#32) = _
  rw [Ideal.ofBits_zero_f32]

/-- Where the three windows' blocks sit at grid point t: the row windows at row-block t, the one-row window
    always at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of what the body stores at grid point t is the positive part of the rows' array plus the one row, read at the
    place of the output array where entry (p, q) of block t lies. -/
theorem blk_apply (c : Dev nD) (t : Fin cfg3.N) (p : Fin 4000) (q : Fin 128) :
    k3_pay1 (F := Ideal) (iblk3 V c 0 t) (iblk3 V c 1 t) (ix2 p q)
      = GcnSpec.addRowRelu (V c main_v48) (V c main_v49) (((cfg3.win 2).blk t).view.emb (ix2 p q)) := by
  refine (pay_apply (iblk3 V c 0 t) (iblk3 V c 1 t) p q).trans ?_
  obtain ⟨e0, e1, e2, e3, e4, e5⟩ := idx_facts t
  unfold iblk3 GcnSpec.addRowRelu
  -- the rows' block and the output's block are the same rectangle of their arrays
  have h0 : ((cfg3.win 0).blk t).view.emb (ix2 p q) = ((cfg3.win 2).blk t).view.emb (ix2 p q) := by
    funext a; apply Fin.ext
    match a with
    | ⟨0, _⟩ => show win3_0.index t (0 : Fin 2) * 4000 + 1 * p.val = win3_2.index t (0 : Fin 2) * 4000 + 1 * p.val; omega
    | ⟨1, _⟩ => show win3_0.index t (1 : Fin 2) * 128 + 1 * q.val = win3_2.index t (1 : Fin 2) * 128 + 1 * q.val; omega
  -- the one-row window is the whole row: its column q is the output's column
  have h1 : ((cfg3.win 1).blk t).view.emb (ix2 (0 : Fin 1) q)
      = ix2 (0 : Fin 1) (⟨(((cfg3.win 2).blk t).view.emb (ix2 p q) 1).val, (((cfg3.win 2).blk t).view.emb (ix2 p q) 1).isLt⟩ : Fin 128) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  exact relu_congr (congrArg (V c main_v48) h0) (congrArg (V c main_v49) h1)

/-- What grid point t writes back is block t of the positive part of the rows plus the one row. -/
theorem flushed_eq (c : Dev nD) (t : Fin cfg3.N) :
    (dat3 V c).flushed 2 t = ((cfg3.win 2).blk t).view.read (Elt Ideal) (GcnSpec.addRowRelu (V c main_v48) (V c main_v49)) := by
  show (cfg3.win 2).cut (grid3.coords t) ((dat3 V c).after 2 t) = _
  rw [after3_2]
  unfold out3_2
  rw [View.canon_unit_zero hz]
  simp only [View.ld_unit_zero (S := S4000x128) hz, View.ld_unit_zero (S := S1x128) hz]
  refine funext fun (j : S4000x128.Idx) => ?_
  show k3_pay1 (F := Ideal) (iblk3 V c 0 t) (iblk3 V c 1 t) j
      = GcnSpec.addRowRelu (V c main_v48) (V c main_v49) (((cfg3.win 2).blk t).view.emb j)
  rw [eq_ix2 j]
  exact blk_apply V c t (j 0) (j 1)

/-- An index of the output array lies in grid point t's block iff each coordinate lies in the block's range. -/
theorem mem_blk (t : Fin cfg3.N) (i : S100000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v50).slice (win3_2.rect t)).set ↔ _
  rw [View.set_slice_whole, Rect.mem_set_unit]
  exact Iff.rfl

/-- Every index of the output array lies in the block of a grid point that writes back: row r in block r / 4000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 4000 :=
    ⟨⟨(i 0).val / 4000, by show _ < grid3.N; rw [N_3]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 128 ≤ (i 1).val ∧ (i 1).val < win3_2.index t (1 : Fin 2) * 128 + 128; omega

/-- The output array after all 25 grid points: the positive part of the rows plus the one row. -/
theorem final (c : Dev nD) :
    (dat3 V c).arrAt 2 cfg3.N = GcnSpec.addRowRelu (V c main_v48) (V c main_v49) :=
  (dat3 V c).arrAt_eq_of_cover 2 (GcnSpec.addRowRelu (V c main_v48) (V c main_v49)) (fun t _ => flushed_eq V c t) cover

end Cert.KernelIdeal.Bias3

end
-- ==== Proof.Dense4.lean ====
/-
  The second layer's projection: what the kernel's fifth call leaves in its output array.

  The call walks the 100000 rows in 25 blocks of 4000. At each block its body multiplies the block of rows
  (4000 × 128) by the whole weight matrix (128 × 128) into a zero accumulator; the format changes on the way
  are the identity on extended reals. So entry (p, q) of the block's result is the sum over k of
  rows[p, k] · weights[k, q], which is the same entry of `GcnSpec.proj128` of the two whole arrays read
  through the block; the 25 blocks tile the array, so the array ends holding `proj128`.
-/
import proofs.«428785_j38972533244082_1_alg».proof.Proof.Gen.KernelIdeal.Frame
import proofs.«428785_j38972533244082_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense4

open Cert.KernelIdeal Cert.KernelIdeal.Gen Idealize.ShloMosaic Idealize.ShloMosaic.TcCoe Idealize.SL.Sem
open Idealize.ShloMosaic.ValueIdx Idealize.ShloMosaic.Pipeline

/-! ## The body's product at an entry -/

theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of the body's result block: the sum over k of rows[p, k] · weights[k, q]. -/
theorem pay_apply (x0 : FVec Ideal S4000x128 .f32) (x1 : FVec Ideal S128x128 .f32) (p : Fin 4000) (q : Fin 128) :
    k4_pay1 (F := Ideal) x0 x1 (ix2 p q) = ∑ k : Fin 128, x0 (ix2 p k) * x1 (ix2 k q) := by
  unfold k4_pay1
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_0 _ _).trans hk
    | ⟨1, _⟩ => exact rhs_1 _ _)
  rw [el, er, shapeCast_self, shapeCast_self]
  rfl

/-! ## What a block writes back -/

variable (V : (c : Dev nD) → (b : Ref sig .tc) → Buf (Elt Ideal) ((c : Thread nD τ).loc b))

theorem hz : (![0, 0] : Fin 2 → Nat) = fun _ => 0 := funext fun a => by fin_cases a <;> rfl

/-- The call's index maps over its 25 points: rows block `t` for the rows and the result, the one block of the weights. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem flushed_eq (c : Dev nD) (t : Fin cfg4.N) :
    (dat4 V c).flushed 2 t = ((cfg4.win 2).blk t).view.read (Elt Ideal) (GcnSpec.proj128 (V c main_v50) (V c main_v51)) := by
  show (cfg4.win 2).cut (grid4.coords t) ((dat4 V c).after 2 t) = _
  rw [after4_2]
  unfold out4_2
  rw [View.canon_unit_zero hz]
  simp only [View.ld_unit_zero (S := S4000x128) hz, View.ld_unit_zero (S := S128x128) hz]
  obtain ⟨e00, e01, e10, e11, e20, e21⟩ := idx_facts t
  funext j
  obtain ⟨p, q, rfl⟩ : ∃ (p : Fin 4000) (q : Fin 128), j = ix2 p q := ⟨j 0, j 1, eq_ix2 j⟩
  show k4_pay1 (F := Ideal) (iblk4 V c 0 t) (iblk4 V c 1 t) (ix2 p q)
    = GcnSpec.proj128 (V c main_v50) (V c main_v51) (((cfg4.win 2).blk t).view.emb (ix2 p q))
  refine (pay_apply (iblk4 V c 0 t) (iblk4 V c 1 t) p q).trans ?_
  unfold GcnSpec.proj128
  refine Finset.sum_congr rfl fun k _ => ?_
  have h0 : iblk4 V c 0 t (ix2 p k)
      = V c main_v50 (ix2 (⟨((((cfg4.win 2).blk t).view.emb (ix2 p q)) 0).val, ((((cfg4.win 2).blk t).view.emb (ix2 p q)) 0).isLt⟩ : Fin 100000) k) := by
    show V c main_v50 (((cfg4.win 0).blk t).view.emb (ix2 p k)) = _
    refine congrArg (V c main_v50) (funext fun a => Fin.ext ?_)
    match a with
    | ⟨0, _⟩ => show win4_0.index t (0 : Fin 2) * 4000 + 1 * p.val = win4_2.index t (0 : Fin 2) * 4000 + 1 * p.val; omega
    | ⟨1, _⟩ => show win4_0.index t (1 : Fin 2) * 128 + 1 * k.val = k.val; omega
  have h1 : iblk4 V c 1 t (ix2 k q)
      = V c main_v51 (ix2 k (⟨((((cfg4.win 2).blk t).view.emb (ix2 p q)) 1).val, ((((cfg4.win 2).blk t).view.emb (ix2 p q)) 1).isLt⟩ : Fin 128)) := by
    show V c main_v51 (((cfg4.win 1).blk t).view.emb (ix2 k q)) = _
    refine congrArg (V c main_v51) (funext fun a => Fin.ext ?_)
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  rw [h0, h1]

/-! ## The blocks tile the array -/

/-- An index is in point `t`'s block iff each coordinate is in the block's range on its axis. -/
theorem mem_blk (t : Fin cfg4.N) (i : S100000x128.Idx) :
    i ∈ ((cfg4.win 2).blk t).view.set ↔ ∀ a : Fin 2, win4_2.index t a * S4000x128.size a ≤ (i a).val ∧ (i a).val < win4_2.index t a * S4000x128.size a + S4000x128.size a := by
  show i ∈ ((View.whole main_v52).slice (win4_2.rect t)).set ↔ _
  rw [View.set_slice_whole, Rect.mem_set_unit]
  exact Iff.rfl

/-- Row `r` lies in block `r / 4000`, and every point writes its block back. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 25 := N_4
  have ht : (i 0).val / 4000 < cfg4.N := by show (i 0).val / 4000 < grid4.N; omega
  obtain ⟨-, -, -, -, e20, e21⟩ := idx_facts ⟨(i 0).val / 4000, ht⟩
  refine ⟨⟨(i 0).val / 4000, ht⟩, flush4_2 _, ?_⟩
  rw [mem_blk]
  intro a
  match a with
  | ⟨0, _⟩ =>
    show win4_2.index ⟨(i 0).val / 4000, ht⟩ (0 : Fin 2) * 4000 ≤ (i 0).val ∧ (i 0).val < win4_2.index ⟨(i 0).val / 4000, ht⟩ (0 : Fin 2) * 4000 + 4000
    rw [e20]; show (i 0).val / 4000 * 4000 ≤ (i 0).val ∧ (i 0).val < (i 0).val / 4000 * 4000 + 4000; omega
  | ⟨1, _⟩ =>
    show win4_2.index ⟨(i 0).val / 4000, ht⟩ (1 : Fin 2) * 128 ≤ (i 1).val ∧ (i 1).val < win4_2.index ⟨(i 0).val / 4000, ht⟩ (1 : Fin 2) * 128 + 128
    rw [e21]; omega

/-- The array after the call: the projection of the two arrays the call found. -/
theorem final (c : Dev nD) :
    (dat4 V c).arrAt 2 cfg4.N = GcnSpec.proj128 (V c main_v50) (V c main_v51) :=
  (dat4 V c).arrAt_eq_of_cover 2 (GcnSpec.proj128 (V c main_v50) (V c main_v51)) (fun t _ => flushed_eq V c t) cover

end Cert.KernelIdeal.Dense4

end
-- ==== Proof.Bias5.lean ====
/-
  The second graph layer's bias call (pipeline 5), from its 25 blocks to the whole array. The body stores, at row p and
  column q of a block, the rows' entry there plus the one-row operand's entry at column q (pay_apply); at grid point t
  the rows' windows sit at row-block t and the one-row window is the whole row (idx_facts), so point t writes back
  block t of GcnSpec.addRow of the two inputs (flushed_eq); row r lies in block r / 4000 (cover); hence final.
-/
import proofs.«428785_j38972533244082_1_alg».proof.Proof.Gen.KernelIdeal.Frame
import proofs.«428785_j38972533244082_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Bias5

open Cert.KernelIdeal Cert.KernelIdeal.Gen Idealize.ShloMosaic Idealize.ShloMosaic.TcCoe Idealize.SL.Sem
open Idealize.ShloMosaic.StableHlo Idealize.ShloMosaic.ValueIdx Idealize.ShloMosaic.Pipeline

variable (V : (c : Dev nD) → (b : Ref sig .tc) → Buf (Elt Ideal) ((c : Thread nD τ).loc b))

/-- The all-zero offset of a whole-block access. -/
theorem hz : (![0, 0] : Fin 2 → Nat) = fun _ => 0 := funext fun a => by fin_cases a <;> rfl

/-- Equal summands give equal sums. -/
private theorem sum_congr {a a' b b' : EReal} (ha : a = a') (hb : b = b') : a + b = a' + b' := by rw [ha, hb]

/-- The stored value at row p, column q: the block's entry there plus the single row's entry at column q. -/
theorem pay_apply (x0 : FVec Ideal S4000x128 .f32) (x1 : FVec Ideal S1x128 .f32) (p : Fin 4000) (q : Fin 128) :
    k5_pay1 (F := Ideal) x0 x1 (ix2 p q) = x0 (ix2 p q) + x1 (ix2 (0 : Fin 1) q) := by
  unfold k5_pay1
  rw [addf_apply, shapeCast_self, shapeCast_self, shapeCast_self, broadcastTo_1b_ab_apply]

/-- Where the three windows' blocks sit at grid point t: the row windows at row-block t, the one-row window
    always at the origin. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (p, q) of what the body stores at grid point t is the rows' array plus the one row, read at the
    place of the output array where entry (p, q) of block t lies. -/
theorem blk_apply (c : Dev nD) (t : Fin cfg5.N) (p : Fin 4000) (q : Fin 128) :
    k5_pay1 (F := Ideal) (iblk5 V c 0 t) (iblk5 V c 1 t) (ix2 p q)
      = GcnSpec.addRow (V c main_v65) (V c main_v66) (((cfg5.win 2).blk t).view.emb (ix2 p q)) := by
  refine (pay_apply (iblk5 V c 0 t) (iblk5 V c 1 t) p q).trans ?_
  obtain ⟨e0, e1, e2, e3, e4, e5⟩ := idx_facts t
  unfold iblk5 GcnSpec.addRow
  -- the rows' block and the output's block are the same rectangle of their arrays
  have h0 : ((cfg5.win 0).blk t).view.emb (ix2 p q) = ((cfg5.win 2).blk t).view.emb (ix2 p q) := by
    funext a; apply Fin.ext
    match a with
    | ⟨0, _⟩ => show win5_0.index t (0 : Fin 2) * 4000 + 1 * p.val = win5_2.index t (0 : Fin 2) * 4000 + 1 * p.val; omega
    | ⟨1, _⟩ => show win5_0.index t (1 : Fin 2) * 128 + 1 * q.val = win5_2.index t (1 : Fin 2) * 128 + 1 * q.val; omega
  -- the one-row window is the whole row: its column q is the output's column
  have h1 : ((cfg5.win 1).blk t).view.emb (ix2 (0 : Fin 1) q)
      = ix2 (0 : Fin 1) (⟨(((cfg5.win 2).blk t).view.emb (ix2 p q) 1).val, (((cfg5.win 2).blk t).view.emb (ix2 p q) 1).isLt⟩ : Fin 128) := by
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  exact sum_congr (congrArg (V c main_v65) h0) (congrArg (V c main_v66) h1)

/-- What grid point t writes back is block t of the rows plus the one row. -/
theorem flushed_eq (c : Dev nD) (t : Fin cfg5.N) :
    (dat5 V c).flushed 2 t = ((cfg5.win 2).blk t).view.read (Elt Ideal) (GcnSpec.addRow (V c main_v65) (V c main_v66)) := by
  show (cfg5.win 2).cut (grid5.coords t) ((dat5 V c).after 2 t) = _
  rw [after5_2]
  unfold out5_2
  rw [View.canon_unit_zero hz]
  simp only [View.ld_unit_zero (S := S4000x128) hz, View.ld_unit_zero (S := S1x128) hz]
  refine funext fun (j : S4000x128.Idx) => ?_
  show k5_pay1 (F := Ideal) (iblk5 V c 0 t) (iblk5 V c 1 t) j
      = GcnSpec.addRow (V c main_v65) (V c main_v66) (((cfg5.win 2).blk t).view.emb j)
  rw [eq_ix2 j]
  exact blk_apply V c t (j 0) (j 1)

/-- An index of the output array lies in grid point t's block iff each coordinate lies in the block's range. -/
theorem mem_blk (t : Fin cfg5.N) (i : S100000x128.Idx) :
    i ∈ ((cfg5.win 2).blk t).view.set ↔ ∀ a : Fin 2, win5_2.index t a * S4000x128.size a ≤ (i a).val ∧ (i a).val < win5_2.index t a * S4000x128.size a + S4000x128.size a := by
  show i ∈ ((View.whole main_v67).slice (win5_2.rect t)).set ↔ _
  rw [View.set_slice_whole, Rect.mem_set_unit]
  exact Iff.rfl

/-- Every index of the output array lies in the block of a grid point that writes back: row r in block r / 4000. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ : ∃ t : Fin cfg5.N, t.val = (i 0).val / 4000 :=
    ⟨⟨(i 0).val / 4000, by show _ < grid5.N; rw [N_5]; omega⟩, rfl⟩
  obtain ⟨e0, e1, e2, e3, e4, e5⟩ := idx_facts t
  refine ⟨t, flush5_2 t, ?_⟩
  rw [mem_blk]
  intro a
  match a with
  | ⟨0, _⟩ => show win5_2.index t (0 : Fin 2) * 4000 ≤ (i 0).val ∧ (i 0).val < win5_2.index t (0 : Fin 2) * 4000 + 4000; omega
  | ⟨1, _⟩ => show win5_2.index t (1 : Fin 2) * 128 ≤ (i 1).val ∧ (i 1).val < win5_2.index t (1 : Fin 2) * 128 + 128; omega

/-- The output array after all 25 grid points: the rows plus the one row. -/
theorem final (c : Dev nD) :
    (dat5 V c).arrAt 2 cfg5.N = GcnSpec.addRow (V c main_v65) (V c main_v66) :=
  (dat5 V c).arrAt_eq_of_cover 2 (GcnSpec.addRow (V c main_v65) (V c main_v66)) (fun t _ => flushed_eq V c t) cover

end Cert.KernelIdeal.Bias5

end
-- ==== Proof.RefDense.lean ====
/-
  Six dense stages of the reference program, read at the extended reals, are the whole-array functions of the
  specification. A product of feature rows with a weight matrix has entry (r, c) equal to the sum over k of
  A[r, k] · B[k, c] (the three matrix products); a bias vector broadcast first to one row and then to every row
  adds b[c] to entry (r, c) (the three bias additions), and the maximum with the all-zero array that follows one of
  them is the positive part. Each proof reads the stage at one index and identifies the index maps coordinate by coordinate.
-/
import proofs.«428785_j38972533244082_1_alg».proof.Proof.Gen.ReferenceIdeal.Read
import proofs.«428785_j38972533244082_1_alg».proof.Proof.Spec
import Idealize.ShloMosaic.Lib.ValueIdx
import Idealize.ShloMosaic.PureOps.Ideal.Laws

noncomputable section

open scoped BigOperators

namespace Cert.ReferenceIdeal.Dense

open Cert.ReferenceIdeal Cert.ReferenceIdeal.Read Idealize.ShloMosaic Idealize.ShloMosaic.ValueIdx

/-! ## The index maps, by coordinates -/

/-- The first product reads its left operand at row `i 0`, column `k`. -/
private theorem lidx8_eq (i : S100000x128.Idx) (k : Fin 256) :
    lidx_main_v8 i k = ix2 (⟨(i 0).val, (i 0).isLt⟩ : Fin 100000) k :=
  funext fun a => by match a with | ⟨0, _⟩ => rfl | ⟨1, _⟩ => rfl

/-- The first product reads its right operand at row `k`, column `i 1`. -/
private theorem ridx8_eq (i : S100000x128.Idx) (k : Fin 256) :
    ridx_main_v8 i k = ix2 k (⟨(i 1).val, (i 1).isLt⟩ : Fin 128) :=
  funext fun a => by match a with | ⟨0, _⟩ => rfl | ⟨1, _⟩ => rfl

/-- The second product's left index: row `i 0`, column `k`. -/
private theorem lidx42_eq (i : S100000x128.Idx) (k : Fin 128) :
    lidx_main_v42 i k = ix2 (⟨(i 0).val, (i 0).isLt⟩ : Fin 100000) k :=
  funext fun a => by match a with | ⟨0, _⟩ => rfl | ⟨1, _⟩ => rfl

/-- The second product's right index: row `k`, column `i 1`. -/
private theorem ridx42_eq (i : S100000x128.Idx) (k : Fin 128) :
    ridx_main_v42 i k = ix2 k (⟨(i 1).val, (i 1).isLt⟩ : Fin 128) :=
  funext fun a => by match a with | ⟨0, _⟩ => rfl | ⟨1, _⟩ => rfl

/-- The third product's left index: row `i 0`, column `k`. -/
private theorem lidx61_eq (i : S100000x128.Idx) (k : Fin 128) :
    lidx_main_v61 i k = ix2 (⟨(i 0).val, (i 0).isLt⟩ : Fin 100000) k :=
  funext fun a => by match a with | ⟨0, _⟩ => rfl | ⟨1, _⟩ => rfl

/-- The third product's right index: row `k`, column `i 1`. -/
private theorem ridx61_eq (i : S100000x128.Idx) (k : Fin 128) :
    ridx_main_v61 i k = ix2 k (⟨(i 1).val, (i 1).isLt⟩ : Fin 128) :=
  funext fun a => by match a with | ⟨0, _⟩ => rfl | ⟨1, _⟩ => rfl

/-- Through its two broadcasts the first bias is read at the column `i 1`. -/
private theorem bidx11_eq (i : S100000x128.Idx) :
    idx_main_v9 (idx_main_v10 i) = ix1 (⟨(i 1).val, (i 1).isLt⟩ : Fin 128) :=
  funext fun a => by match a with | ⟨0, _⟩ => rfl

/-- The second bias likewise. -/
private theorem bidx58_eq (i : S100000x128.Idx) :
    idx_main_v56 (idx_main_v57 i) = ix1 (⟨(i 1).val, (i 1).isLt⟩ : Fin 128) :=
  funext fun a => by match a with | ⟨0, _⟩ => rfl

/-- The third bias likewise. -/
private theorem bidx77_eq (i : S100000x128.Idx) :
    idx_main_v75 (idx_main_v76 i) = ix1 (⟨(i 1).val, (i 1).isLt⟩ : Fin 128) :=
  funext fun a => by match a with | ⟨0, _⟩ => rfl

/-! ## The six stages -/

variable (x0 : (⟨Cert.ReferenceIdeal.S100000, .i32⟩ : BufTy).Contents (Elt Ideal)) (x1 : (⟨Cert.ReferenceIdeal.S2x1600000, .i32⟩ : BufTy).Contents (Elt Ideal)) (x2 : (⟨Cert.ReferenceIdeal.S50000x256, .f32⟩ : BufTy).Contents (Elt Ideal)) (x3 : (⟨Cert.ReferenceIdeal.S128x256, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))

/-- The first matrix product: gathered feature rows (256 wide) times the transposed first weight. -/
theorem v8_eq : val_main_v8 (F := Ideal) x0 x2 x3 = GcnSpec.proj256 (val_main_v6 (F := Ideal) x0 x2) (val_main_v7 (F := Ideal) x3) := by
  funext i
  rw [val_main_v8_apply]
  unfold GcnSpec.proj256
  generalize val_main_v6 (F := Ideal) x0 x2 = A
  generalize val_main_v7 (F := Ideal) x3 = B
  refine Finset.sum_congr rfl fun k _ => ?_
  rw [lidx8_eq, ridx8_eq]

/-- The first bias addition. -/
theorem v11_eq : val_main_v11 (F := Ideal) x0 x2 x3 x4 = GcnSpec.addBias (val_main_v8 (F := Ideal) x0 x2 x3) x4 := by
  funext i
  rw [val_main_v11_apply, val_main_v10_apply, val_main_v9_apply, bidx11_eq]
  unfold GcnSpec.addBias
  generalize val_main_v8 (F := Ideal) x0 x2 x3 = X
  rfl

/-- The second matrix product (128 wide). -/
theorem v42_eq : val_main_v42 (F := Ideal) x0 x2 x3 x4 x5 = GcnSpec.proj128 (val_main_v11 (F := Ideal) x0 x2 x3 x4) (val_main_v41 (F := Ideal) x5) := by
  funext i
  rw [val_main_v42_apply]
  unfold GcnSpec.proj128
  generalize val_main_v11 (F := Ideal) x0 x2 x3 x4 = A
  generalize val_main_v41 (F := Ideal) x5 = B
  refine Finset.sum_congr rfl fun k _ => ?_
  rw [lidx42_eq, ridx42_eq]

/-- The second bias addition followed by the maximum with the zero array: the positive part. -/
theorem v59_eq : val_main_v59 (F := Ideal) x0 x1 x2 x3 x4 x5 x6 = GcnSpec.addBiasRelu (val_main_v55 (F := Ideal) x0 x1 x2 x3 x4 x5) x6 := by
  funext i
  rw [val_main_v59_apply, val_main_v58_apply, val_main_v57_apply, val_main_v56_apply, bidx58_eq,
    val_main_call0_v0_apply, val_main_call0_cst_apply, Ideal.ofBits_def, Ideal.ofBits_zero_f32]
  unfold GcnSpec.addBiasRelu
  generalize val_main_v55 (F := Ideal) x0 x1 x2 x3 x4 x5 = X
  rfl

/-- The third matrix product (128 wide). -/
theorem v61_eq : val_main_v61 (F := Ideal) x0 x1 x2 x3 x4 x5 x6 x7 = GcnSpec.proj128 (val_main_v59 (F := Ideal) x0 x1 x2 x3 x4 x5 x6) (val_main_v60 (F := Ideal) x7) := by
  funext i
  rw [val_main_v61_apply]
  unfold GcnSpec.proj128
  generalize val_main_v59 (F := Ideal) x0 x1 x2 x3 x4 x5 x6 = A
  generalize val_main_v60 (F := Ideal) x7 = B
  refine Finset.sum_congr rfl fun k _ => ?_
  rw [lidx61_eq, ridx61_eq]

/-- The third bias addition. -/
theorem v77_eq : val_main_v77 (F := Ideal) x0 x1 x2 x3 x4 x5 x6 x7 x8 = GcnSpec.addBias (val_main_v74 (F := Ideal) x0 x1 x2 x3 x4 x5 x6 x7) x8 := by
  funext i
  rw [val_main_v77_apply, val_main_v76_apply, val_main_v75_apply, bidx77_eq]
  unfold GcnSpec.addBias
  generalize val_main_v74 (F := Ideal) x0 x1 x2 x3 x4 x5 x6 x7 = X
  rfl

end Cert.ReferenceIdeal.Dense

end
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.Emb.lean ====
/-
  The embedding lookup. The kernel looks node tokens up in "fill" mode: a negative token is moved up by 50000, the
  table's rows are gathered, and every row whose moved token lies outside [0, 49999] is replaced by a fill value. The
  precondition says that every token is at least 0 and below 50000, as signed 32-bit words (`tok_range`); then the
  move leaves a token where it is, the in-range mask is 1 at every row (`take_fill_eq`), and the select keeps the
  gathered rows: `emb_value`, the kernel's looked-up array is the reference's gather of the same moved tokens.
-/
import proofs.«428785_j38972533244082_1_alg».proof.Defs
import proofs.«428785_j38972533244082_1_alg».proof.Proof.Gen.KernelIdeal.Frame
import proofs.«428785_j38972533244082_1_alg».proof.Proof.Gen.ReferenceIdeal.Read
import proofs.«428785_j38972533244082_1_alg».proof.Proof.Gen.Pre_finite_inputs
import proofs.«428785_j38972533244082_1_alg».proof.Proof.LibTypedRef
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.ReduceAll
import Idealize.ShloMosaic.Lib.StableHlo.Predicate

set_option maxRecDepth 16384

noncomputable section

open scoped BigOperators

namespace Cert.KernelIdeal.Emb

open Cert.KernelIdeal Cert.KernelIdeal.Gen Idealize.ShloMosaic Idealize.ShloMosaic.TcCoe Idealize.SL.Sem
open Idealize.ShloMosaic.StableHlo Idealize.ShloMosaic.ValueIdx Idealize.ShloMosaic.Pipeline

variable (m : (ℓ : Loc nD τ sig) → Buf (Elt Ideal) ℓ) (ρ : Dev nD → PrngReg)

/-- A signed 32-bit word that is at least 0 and below 50000 is not below 0 and is at most 49999. -/
private theorem word_in_range (a : BitVec 32) (h0 : IntOp.cmpi .sge a 0#32 = 1#1) (h1 : IntOp.cmpi .slt a 50000#32 = 1#1) :
    IntOp.cmpi .slt a 0#32 = 0#1 ∧ IntOp.cmpi .sle a 49999#32 = 1#1 := by
  simp only [IntOp.cmpi, Predicate.ofBool_eq_one_iff, BitVec.sle_iff_toInt_le, BitVec.slt_iff_toInt_lt] at h0 h1
  have e0 : (0#32 : BitVec 32).toInt = 0 := by decide
  have e1 : (50000#32 : BitVec 32).toInt = 50000 := by decide
  have e2 : (49999#32 : BitVec 32).toInt = 49999 := by decide
  rw [e0] at h0
  rw [e1] at h1
  constructor
  · have : a.slt 0#32 = false := by
      rw [Bool.eq_false_iff]; intro h
      rw [BitVec.slt_iff_toInt_lt, e0] at h
      omega
    simp only [IntOp.cmpi, this]; rfl
  · simp only [IntOp.cmpi, Predicate.ofBool_eq_one_iff, BitVec.sle_iff_toInt_le, e2]
    omega

/-- A left fold by `and` from 1 over words that are all 1 is 1. -/
private theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and`, from an initial value that is 1, of an array whose entries are all 1 is 1 everywhere. -/
private theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

private instance : Subsingleton Cert.Pre_finite_inputs.S_.Idx := ⟨fun a b => funext fun d => d.elim0⟩

/-- The precondition's two token conjuncts, at a row: the token is not negative and below 50000, as signed words. -/
private theorem tok_range (hpre : Cert.Pre_KernelIdeal m) (c : Dev nD) (r : S100000.Idx) :
    IntOp.cmpi .sge (m ((c : Thread nD τ).loc main_arg0) r) 0#32 = 1#1
      ∧ IntOp.cmpi .slt (m ((c : Thread nD τ).loc main_arg0) r) 50000#32 = 1#1 := by
  have h := congrFun (hpre c) ValueIdx.ix0
  dsimp only [Cert.Pre_finite_inputs.fn, Cert.Pre_finite_inputs.fn_part1, Cert.Pre_finite_inputs.fn_part2] at h
  have h' : IntOp.andi (IntOp.andi _ _) _ = 1#1 := h
  obtain ⟨h1, hlt⟩ := IntOp.andi_eq_one.1 h'
  obtain ⟨_, hge⟩ := IntOp.andi_eq_one.1 h1
  exact ⟨Host.reduce_andi_all _ _ _ _ _ hge r, Host.reduce_andi_all _ _ _ _ _ hlt r⟩

/-- The token array after the negative-index wrap: a token below 0 is moved up by 50000. -/
private abbrev wrap (x0 : IVec S100000 32) : IVec S100000 32 :=
  select (cmpi .slt x0 (broadcastInDim S100000 ![] bcast_S_S100000 (constantI S_ 32 0#32)))
    (addi x0 (broadcastInDim S100000 ![] bcast_S_S100000 (constantI S_ 32 50000#32))) x0

/-- On tokens in [0, 50000) the wrapped token is still at least 0 and at most 49999. -/
private theorem wrap_range (x0 : IVec S100000 32)
    (H : ∀ r, IntOp.cmpi .sge (x0 r) 0#32 = 1#1 ∧ IntOp.cmpi .slt (x0 r) 50000#32 = 1#1) (r : S100000.Idx) :
    IntOp.cmpi .sge (wrap x0 r) 0#32 = 1#1 ∧ IntOp.cmpi .sle (wrap x0 r) 49999#32 = 1#1 := by
  have e : wrap x0 r = x0 r := by
    show Scalar.select (IntOp.cmpi .slt (x0 r) 0#32) (IntOp.addi (x0 r) 50000#32) (x0 r) = x0 r
    rw [(word_in_range _ (H r).1 (H r).2).1, select_zero]
  rw [e]
  exact ⟨(H r).1, (word_in_range _ (H r).1 (H r).2).2⟩

/-- The fill-mode lookup with every (wrapped) token in [0, 49999]: the in-range mask is 1 at every row, so the select
    keeps the gathered rows and the fill value is never taken. -/
private theorem take_fill_eq {α : Type} (w : IVec S100000 32) (g fill : S100000x256.Idx → α)
    (Hw : ∀ r, IntOp.cmpi .sge (w r) 0#32 = 1#1 ∧ IntOp.cmpi .sle (w r) 49999#32 = 1#1) :
    select
      (broadcastInDim S100000x256 ![0] bcast_S100000_S100000x256_0
        (Host.reduce IntOp.andi
          (andi
            (cmpi .sge (broadcastInDim S100000x1 ![0] bcast_S100000_S100000x1_0 w)
              (broadcastInDim S100000x1 ![] bcast_S_S100000x1 (constantI S_ 32 0#32)))
            (cmpi .sle (broadcastInDim S100000x1 ![0] bcast_S100000_S100000x1_0 w)
              (broadcastInDim S100000x1 ![0, 1] bcast_S1x1_S100000x1_0_1
                (broadcastInDim S1x1 ![1] bcast_S1_S1x1_1 (constantI S1 32 49999#32)))))
          (constantI S_ 1 1#1) reducesTo_S100000x1_S100000_d1 h_S_))
      g fill = g := by
  funext i
  rw [select_apply]
  have hm : ∀ j, Host.reduce IntOp.andi
          (andi
            (cmpi .sge (broadcastInDim S100000x1 ![0] bcast_S100000_S100000x1_0 w)
              (broadcastInDim S100000x1 ![] bcast_S_S100000x1 (constantI S_ 32 0#32)))
            (cmpi .sle (broadcastInDim S100000x1 ![0] bcast_S100000_S100000x1_0 w)
              (broadcastInDim S100000x1 ![0, 1] bcast_S1x1_S100000x1_0_1
                (broadcastInDim S1x1 ![1] bcast_S1_S1x1_1 (constantI S1 32 49999#32)))))
          (constantI S_ 1 1#1) reducesTo_S100000x1_S100000_d1 h_S_ j = 1#1 := by
    intro j
    refine reduce_andi_ones _ _ _ _ (fun k => ?_) (fun _ => rfl) j
    show IntOp.andi (IntOp.cmpi .sge (w _) 0#32) (IntOp.cmpi .sle (w _) 49999#32) = 1#1
    exact IntOp.andi_eq_one.2 (Hw _)
  have hb : broadcastInDim S100000x256 ![0] bcast_S100000_S100000x256_0
        (Host.reduce IntOp.andi
          (andi
            (cmpi .sge (broadcastInDim S100000x1 ![0] bcast_S100000_S100000x1_0 w)
              (broadcastInDim S100000x1 ![] bcast_S_S100000x1 (constantI S_ 32 0#32)))
            (cmpi .sle (broadcastInDim S100000x1 ![0] bcast_S100000_S100000x1_0 w)
              (broadcastInDim S100000x1 ![0, 1] bcast_S1x1_S100000x1_0_1
                (broadcastInDim S1x1 ![1] bcast_S1_S1x1_1 (constantI S1 32 49999#32)))))
          (constantI S_ 1 1#1) reducesTo_S100000x1_S100000_d1 h_S_) i = 1#1 := hm _
  rw [hb, select_one]

/-- Reading an argument's buffer at its printed type, and writing the result's, are transports along `rfl`. -/
private theorem ofBuf_arg0 (h1 h2 h3) (v : (main_arg0 : Ref sig .tc).ty.Contents (Elt Ideal)) :
    (TRef.of main_arg0 h1 h2 h3 : TRef sig ⟨S100000, .i32⟩).ofBuf v = v := rfl
private theorem ofBuf_arg2 (h1 h2 h3) (v : (main_arg2 : Ref sig .tc).ty.Contents (Elt Ideal)) :
    (TRef.of main_arg2 h1 h2 h3 : TRef sig ⟨S50000x256, .f32⟩).ofBuf v = v := rfl
private theorem toBuf_v0 (h1 h2 h3) (v : (⟨S100000x256, .f32⟩ : BufTy).Contents (Elt Ideal)) :
    (TRef.of main_v0 h1 h2 h3 : TRef sig ⟨S100000x256, .f32⟩).toBuf v = v := rfl

set_option maxHeartbeats 4000000 in
theorem emb_value (hpre : Cert.Pre_KernelIdeal m) (c : Dev nD) :
    W2 (F := Ideal) m ρ c (Proc.devRef .tc main_v0) = Cert.ReferenceIdeal.Read.val_main_v6 (F := Ideal) (m ((c : Thread nD τ).loc main_arg0)) (m ((c : Thread nD τ).loc main_arg2)) := by
  dsimp only [W2, W1]
  after_results_simp
  simp only [TRef.ofBuf_toBuf, ofBuf_arg0, ofBuf_arg2, toBuf_v0]
  rw [show W0 m ρ c (Proc.devRef .tc main_arg0) = m ((c : Thread nD τ).loc main_arg0) from rfl,
    show W0 m ρ c (Proc.devRef .tc main_arg2) = m ((c : Thread nD τ).loc main_arg2) from rfl]
  refine (take_fill_eq (wrap (m ((c : Thread nD τ).loc main_arg0))) _ _
    (wrap_range _ (tok_range m hpre c))).trans ?_
  simp only [Cert.ReferenceIdeal.Read.val_main_v6, Cert.ReferenceIdeal.Read.val_main_v5, Cert.ReferenceIdeal.Read.val_main_v4,
    Cert.ReferenceIdeal.Read.val_main_v3, Cert.ReferenceIdeal.Read.val_main_v2, Cert.ReferenceIdeal.Read.val_main_v1,
    Cert.ReferenceIdeal.Read.val_main_v0, Cert.ReferenceIdeal.Read.val_main_c, Cert.ReferenceIdeal.Read.val_main_c_0]
  rfl

end Cert.KernelIdeal.Emb

end
-- ==== Proof.HostEarly.lean ====
/- What single buffers hold at the first host boundaries of the program, read back to the launch contents of the
   arguments. There the host only prepares operands: it transposes the two dense layers' weights, gives the first bias
   a unit row axis, and from the edge list builds the source and destination node lists (an edge row followed by every
   node once) and the edge coefficient (the product, over an edge's two ends, of the inverse square root of the node's
   degree, counted over the destination list and at least one). Each equals the reference's own stage of the argument. -/
import proofs.«428785_j38972533244082_1_alg».proof.Proof.Gen.KernelIdeal.Frame
import proofs.«428785_j38972533244082_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.HostEarly

open Cert.KernelIdeal Cert.KernelIdeal.Gen Idealize.ShloMosaic Idealize.ShloMosaic.TcCoe Idealize.SL.Sem
open Idealize.ShloMosaic.StableHlo Idealize.ShloMosaic.ValueIdx Idealize.ShloMosaic.Pipeline

variable (m : (ℓ : Loc nD τ sig) → Buf (Elt Ideal) ℓ) (ρ : Dev nD → PrngReg)

/-! ## An argument's buffer is as launched

No host operation and no region before the boundary writes the argument, so the fold of contents, read at the
argument's buffer, steps back boundary by boundary to the launch memory. -/

/-- The first bias at the first region's exit. -/
private theorem W3_arg4 (c : Dev nD) :
    W3 (F := Ideal) m ρ c (Proc.devRef .tc main_arg4) = m ((c : Thread nD τ).loc main_arg4) :=
  calc W3 (F := Ideal) m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
        simp only [hostOps0_1, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))
    _ = W0 m ρ c (Proc.devRef .tc main_arg4) := StableHlo.after_of_forall_not_mem (b := Proc.devRef .tc main_arg4) _ _ (List.forall_iff_forall_mem.mp (by
        simp only [hostOps0, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))
    _ = m ((c : Thread nD τ).loc main_arg4) := rfl

/-- The edge list at the second region's exit. -/
private theorem W5_arg1 (c : Dev nD) :
    W5 (F := Ideal) m ρ c (Proc.devRef .tc main_arg1) = m ((c : Thread nD τ).loc main_arg1) :=
  calc W5 (F := Ideal) m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
        simp only [hostOps1, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
        simp only [hostOps0_1, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))
    _ = W0 m ρ c (Proc.devRef .tc main_arg1) := StableHlo.after_of_forall_not_mem (b := Proc.devRef .tc main_arg1) _ _ (List.forall_iff_forall_mem.mp (by
        simp only [hostOps0, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))
    _ = m ((c : Thread nD τ).loc main_arg1) := rfl

/-- The second dense layer's weight at the second region's exit. -/
private theorem W5_arg5 (c : Dev nD) :
    W5 (F := Ideal) m ρ c (Proc.devRef .tc main_arg5) = m ((c : Thread nD τ).loc main_arg5) :=
  calc W5 (F := Ideal) m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
        simp only [hostOps1, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
        simp only [hostOps0_1, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))
    _ = W0 m ρ c (Proc.devRef .tc main_arg5) := StableHlo.after_of_forall_not_mem (b := Proc.devRef .tc main_arg5) _ _ (List.forall_iff_forall_mem.mp (by
        simp only [hostOps0, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))
    _ = m ((c : Thread nD τ).loc main_arg5) := rfl

/-- The operands of a concatenation sit in a list of (shape, array) pairs, where one rewriting pass over the fold
    does not reach: there each operation's result is rewritten in place, at its own buffer to its function's value
    and at any other buffer to what was held before. -/
local macro "results_rw" : tactic =>
  `(tactic| repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

/-! ## The boundaries' buffers -/

set_option maxHeartbeats 4000000 in
/-- At the first region's entry the first weight buffer is the transposed weight argument: the only operation that
    writes it is the transpose, and nothing before writes the argument. -/
theorem wT0 (c : Dev nD) :
    W2 (F := Ideal) m ρ c (Proc.devRef .tc main_v1) = Cert.ReferenceIdeal.Read.val_main_v7 (F := Ideal) (m ((c : Thread nD τ).loc main_arg3)) := by
  dsimp only [W2]
  after_results_simp
  rfl

/-- The reshape of the bias does not write the first region's output. -/
theorem keep_v2 (c : Dev nD) :
    W4 (F := Ideal) m ρ c (Proc.devRef .tc main_v2) = W3 (F := Ideal) m ρ c (Proc.devRef .tc main_v2) :=
  StableHlo.after_of_forall_not_mem (b := Proc.devRef .tc main_v2) _ _ (List.forall_iff_forall_mem.mp (by
        simp only [hostOps1, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))

set_option maxHeartbeats 4000000 in
/-- The bias with a unit row axis holds, in its one row, the bias vector. -/
theorem bias0_row (c : Dev nD) (q : Fin 128) :
    (W4 (F := Ideal) m ρ c (Proc.devRef .tc main_v3) : FVec Ideal S1x128 .f32) (ix2 (0 : Fin 1) q) = (m ((c : Thread nD τ).loc main_arg4)) (ix1 q) := by
  dsimp only [W4]
  after_results_simp
  rw [W3_arg4]
  exact shapeCast_a_1a_apply _ _ 0 q

/-- None of the operations that prepare the graph's lists writes the second region's output. -/
theorem keep_v4 (c : Dev nD) :
    W6 (F := Ideal) m ρ c (Proc.devRef .tc main_v4) = W5 (F := Ideal) m ρ c (Proc.devRef .tc main_v4) :=
  StableHlo.after_of_forall_not_mem (b := Proc.devRef .tc main_v4) _ _ (List.forall_iff_forall_mem.mp (by
        simp only [hostOps2, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))

set_option maxHeartbeats 4000000 in
/-- The source list: the edge list's first row, then every node once. Both programs apply the same slice, reshape
    and concatenation to the same argument, so the two terms agree operation by operation. -/
theorem src_eq (c : Dev nD) :
    W6 (F := Ideal) m ρ c (Proc.devRef .tc main_v8) = Cert.ReferenceIdeal.Read.val_main_v15 (F := Ideal) (m ((c : Thread nD τ).loc main_arg1)) := by
  dsimp only [W6]
  after_results_simp
  results_rw
  rw [W5_arg1]
  rfl

set_option maxHeartbeats 4000000 in
/-- The destination list: the edge list's second row, then every node once. -/
theorem dst_eq (c : Dev nD) :
    W6 (F := Ideal) m ρ c (Proc.devRef .tc main_v11) = Cert.ReferenceIdeal.Read.val_main_v18 (F := Ideal) (m ((c : Thread nD τ).loc main_arg1)) := by
  dsimp only [W6]
  after_results_simp
  results_rw
  rw [W5_arg1]
  rfl

set_option maxHeartbeats 4000000 in
/-- The edge coefficient: the degree is the scatter-add of ones along the destination list, kept at least one; its
    inverse square root is gathered at an edge's source and at its destination (a negative index wrapped by the node
    count) and the two are multiplied. The reference's stage is the same composition of the same operations on the
    edge list, so once the fold is opened and the argument read as launched the two sides are one term. -/
theorem coef_eq (c : Dev nD) :
    W6 (F := Ideal) m ρ c (Proc.devRef .tc main_v33) = Cert.ReferenceIdeal.Read.val_main_v40 (F := Ideal) (m ((c : Thread nD τ).loc main_arg1)) := by
  dsimp only [W6]
  after_results_simp
  results_rw
  rw [W5_arg1]
  rfl

set_option maxHeartbeats 4000000 in
/-- At the third region's entry the second weight buffer is the transposed second weight argument. -/
theorem wT1 (c : Dev nD) :
    W6 (F := Ideal) m ρ c (Proc.devRef .tc main_v34) = Cert.ReferenceIdeal.Read.val_main_v41 (F := Ideal) (m ((c : Thread nD τ).loc main_arg5)) := by
  dsimp only [W6]
  after_results_simp
  rw [W5_arg5]
  rfl

end Cert.KernelIdeal.HostEarly

end
-- ==== Proof.HostLate.lean ====
/- Single buffers at three late boundaries of the program's run. After the first edge aggregation (wrap the source
   indices, gather the feature rows, scale each row by its edge coefficient, scatter-add into zeros at the destination
   indices) the aggregated buffer holds the reference's aggregation stage, given that the gathered features are the
   reference's projected features; the same for the second aggregation. The two reshaped biases read, at (0, q), the
   bias vector at q; the lone transpose leaves the neighbouring buffer alone and yields the reference's transposed weight. -/
import proofs.«428785_j38972533244082_1_alg».proof.Proof.Gen.KernelIdeal.Frame
import proofs.«428785_j38972533244082_1_alg».proof.Proof.Gen.ReferenceIdeal.Read
import proofs.«428785_j38972533244082_1_alg».proof.Proof.HostEarly
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.HostLate

open Cert.KernelIdeal Cert.KernelIdeal.Gen Idealize.ShloMosaic Idealize.ShloMosaic.TcCoe Idealize.SL.Sem
open Idealize.ShloMosaic.StableHlo Idealize.ShloMosaic.ValueIdx Idealize.ShloMosaic.Pipeline

variable (m : (ℓ : Loc nD τ sig) → Buf (Elt Ideal) ℓ) (ρ : Dev nD → PrngReg)

/-- A buffer that none of a literal list of host operations writes is read after the list as before it. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! The arguments and the edge arrays are written by no region and by no later host operation: read at a later
    boundary they are what they were at an earlier one. -/

private theorem W7_arg6 (c : Dev nD) :
    W7 (F := Ideal) m ρ c (Proc.devRef .tc main_arg6) = m ((c : Thread nD τ).loc main_arg6) :=
  calc W7 (F := Ideal) m ρ c (Proc.devRef .tc main_arg6)
    _ = W6 m ρ c (Proc.devRef .tc main_arg6) := W7_of_ne m ρ c main_arg6 (by decide)
    _ = W5 m ρ c (Proc.devRef .tc main_arg6) := by host_keep hostOps2
    _ = W4 m ρ c (Proc.devRef .tc main_arg6) := W5_of_ne m ρ c main_arg6 (by decide)
    _ = W3 m ρ c (Proc.devRef .tc main_arg6) := by host_keep hostOps1
    _ = W2 m ρ c (Proc.devRef .tc main_arg6) := W3_of_ne m ρ c main_arg6 (by decide)
    _ = W1 m ρ c (Proc.devRef .tc main_arg6) := by host_keep hostOps0_1
    _ = W0 m ρ c (Proc.devRef .tc main_arg6) := by host_keep hostOps0
    _ = m ((c : Thread nD τ).loc main_arg6) := rfl

private theorem W9_arg7 (c : Dev nD) :
    W9 (F := Ideal) m ρ c (Proc.devRef .tc main_arg7) = m ((c : Thread nD τ).loc main_arg7) :=
  calc W9 (F := Ideal) m ρ c (Proc.devRef .tc main_arg7)
    _ = W8 m ρ c (Proc.devRef .tc main_arg7) := W9_of_ne m ρ c main_arg7 (by decide)
    _ = W7 m ρ c (Proc.devRef .tc main_arg7) := by host_keep hostOps3
    _ = W6 m ρ c (Proc.devRef .tc main_arg7) := W7_of_ne m ρ c main_arg7 (by decide)
    _ = W5 m ρ c (Proc.devRef .tc main_arg7) := by host_keep hostOps2
    _ = W4 m ρ c (Proc.devRef .tc main_arg7) := W5_of_ne m ρ c main_arg7 (by decide)
    _ = W3 m ρ c (Proc.devRef .tc main_arg7) := by host_keep hostOps1
    _ = W2 m ρ c (Proc.devRef .tc main_arg7) := W3_of_ne m ρ c main_arg7 (by decide)
    _ = W1 m ρ c (Proc.devRef .tc main_arg7) := by host_keep hostOps0_1
    _ = W0 m ρ c (Proc.devRef .tc main_arg7) := by host_keep hostOps0
    _ = m ((c : Thread nD τ).loc main_arg7) := rfl

private theorem W11_arg8 (c : Dev nD) :
    W11 (F := Ideal) m ρ c (Proc.devRef .tc main_arg8) = m ((c : Thread nD τ).loc main_arg8) :=
  calc W11 (F := Ideal) m ρ c (Proc.devRef .tc main_arg8)
    _ = W10 m ρ c (Proc.devRef .tc main_arg8) := W11_of_ne m ρ c main_arg8 (by decide)
    _ = W9 m ρ c (Proc.devRef .tc main_arg8) := by host_keep hostOps4
    _ = W8 m ρ c (Proc.devRef .tc main_arg8) := W9_of_ne m ρ c main_arg8 (by decide)
    _ = W7 m ρ c (Proc.devRef .tc main_arg8) := by host_keep hostOps3
    _ = W6 m ρ c (Proc.devRef .tc main_arg8) := W7_of_ne m ρ c main_arg8 (by decide)
    _ = W5 m ρ c (Proc.devRef .tc main_arg8) := by host_keep hostOps2
    _ = W4 m ρ c (Proc.devRef .tc main_arg8) := W5_of_ne m ρ c main_arg8 (by decide)
    _ = W3 m ρ c (Proc.devRef .tc main_arg8) := by host_keep hostOps1
    _ = W2 m ρ c (Proc.devRef .tc main_arg8) := W3_of_ne m ρ c main_arg8 (by decide)
    _ = W1 m ρ c (Proc.devRef .tc main_arg8) := by host_keep hostOps0_1
    _ = W0 m ρ c (Proc.devRef .tc main_arg8) := by host_keep hostOps0
    _ = m ((c : Thread nD τ).loc main_arg8) := rfl

private theorem W11_v8 (c : Dev nD) :
    W11 (F := Ideal) m ρ c (Proc.devRef .tc main_v8) = W6 (F := Ideal) m ρ c (Proc.devRef .tc main_v8) :=
  calc W11 (F := Ideal) m ρ c (Proc.devRef .tc main_v8)
    _ = W10 m ρ c (Proc.devRef .tc main_v8) := W11_of_ne m ρ c main_v8 (by decide)
    _ = W9 m ρ c (Proc.devRef .tc main_v8) := by host_keep hostOps4
    _ = W8 m ρ c (Proc.devRef .tc main_v8) := W9_of_ne m ρ c main_v8 (by decide)
    _ = W7 m ρ c (Proc.devRef .tc main_v8) := by host_keep hostOps3
    _ = W6 m ρ c (Proc.devRef .tc main_v8) := W7_of_ne m ρ c main_v8 (by decide)

private theorem W11_v11 (c : Dev nD) :
    W11 (F := Ideal) m ρ c (Proc.devRef .tc main_v11) = W6 (F := Ideal) m ρ c (Proc.devRef .tc main_v11) :=
  calc W11 (F := Ideal) m ρ c (Proc.devRef .tc main_v11)
    _ = W10 m ρ c (Proc.devRef .tc main_v11) := W11_of_ne m ρ c main_v11 (by decide)
    _ = W9 m ρ c (Proc.devRef .tc main_v11) := by host_keep hostOps4
    _ = W8 m ρ c (Proc.devRef .tc main_v11) := W9_of_ne m ρ c main_v11 (by decide)
    _ = W7 m ρ c (Proc.devRef .tc main_v11) := by host_keep hostOps3
    _ = W6 m ρ c (Proc.devRef .tc main_v11) := W7_of_ne m ρ c main_v11 (by decide)

private theorem W11_v33 (c : Dev nD) :
    W11 (F := Ideal) m ρ c (Proc.devRef .tc main_v33) = W6 (F := Ideal) m ρ c (Proc.devRef .tc main_v33) :=
  calc W11 (F := Ideal) m ρ c (Proc.devRef .tc main_v33)
    _ = W10 m ρ c (Proc.devRef .tc main_v33) := W11_of_ne m ρ c main_v33 (by decide)
    _ = W9 m ρ c (Proc.devRef .tc main_v33) := by host_keep hostOps4
    _ = W8 m ρ c (Proc.devRef .tc main_v33) := W9_of_ne m ρ c main_v33 (by decide)
    _ = W7 m ρ c (Proc.devRef .tc main_v33) := by host_keep hostOps3
    _ = W6 m ρ c (Proc.devRef .tc main_v33) := W7_of_ne m ρ c main_v33 (by decide)

/-! ## The first aggregation, and the bias reshaped beside it -/

set_option maxHeartbeats 4000000 in
theorem agg1 (c : Dev nD)
    (h : W7 (F := Ideal) m ρ c (Proc.devRef .tc main_v35) = Cert.ReferenceIdeal.Read.val_main_v42 (F := Ideal) (m ((c : Thread nD τ).loc main_arg0)) (m ((c : Thread nD τ).loc main_arg2)) (m ((c : Thread nD τ).loc main_arg3)) (m ((c : Thread nD τ).loc main_arg4)) (m ((c : Thread nD τ).loc main_arg5))) :
    W8 (F := Ideal) m ρ c (Proc.devRef .tc main_v48) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the aggregated buffer as the seventeen operations applied to the four buffers they read
  dsimp only [W8]
  after_results_simp
  -- those four buffers: the features by hypothesis, the edge arrays as they stood before the region
  rw [h, W7_of_ne m ρ c main_v8 (by decide), W7_of_ne m ρ c main_v11 (by decide), W7_of_ne m ρ c main_v33 (by decide),
    HostEarly.src_eq, HostEarly.dst_eq, HostEarly.coef_eq]
  -- the reference's stage is the same operations on the same four operands
  unfold Cert.ReferenceIdeal.Read.val_main_v55 Cert.ReferenceIdeal.Read.val_main_v54 Cert.ReferenceIdeal.Read.val_main_v53
    Cert.ReferenceIdeal.Read.val_main_v52 Cert.ReferenceIdeal.Read.val_main_v51 Cert.ReferenceIdeal.Read.val_main_v50
    Cert.ReferenceIdeal.Read.val_main_v49 Cert.ReferenceIdeal.Read.val_main_v48 Cert.ReferenceIdeal.Read.val_main_v47
    Cert.ReferenceIdeal.Read.val_main_v46 Cert.ReferenceIdeal.Read.val_main_v45 Cert.ReferenceIdeal.Read.val_main_v44
    Cert.ReferenceIdeal.Read.val_main_v43 Cert.ReferenceIdeal.Read.val_main_cst_9 Cert.ReferenceIdeal.Read.val_main_c_8
    Cert.ReferenceIdeal.Read.val_main_c_7
  generalize Cert.ReferenceIdeal.Read.val_main_v18 (F := Ideal) (m ((c : Thread nD τ).loc main_arg1)) = dst
  generalize Cert.ReferenceIdeal.Read.val_main_v15 (F := Ideal) (m ((c : Thread nD τ).loc main_arg1)) = src
  generalize Cert.ReferenceIdeal.Read.val_main_v40 (F := Ideal) (m ((c : Thread nD τ).loc main_arg1)) = coef
  generalize Cert.ReferenceIdeal.Read.val_main_v42 (F := Ideal) (m ((c : Thread nD τ).loc main_arg0)) (m ((c : Thread nD τ).loc main_arg2)) (m ((c : Thread nD τ).loc main_arg3)) (m ((c : Thread nD τ).loc main_arg4)) (m ((c : Thread nD τ).loc main_arg5)) = feat
  rfl

set_option maxHeartbeats 4000000 in
theorem bias1_row (c : Dev nD) (q : Fin 128) :
    (W8 (F := Ideal) m ρ c (Proc.devRef .tc main_v49) : FVec Ideal S1x128 .f32) (ix2 (0 : Fin 1) q) = (m ((c : Thread nD τ).loc main_arg6)) (ix1 q) := by
  dsimp only [W8]
  after_results_simp
  rw [W7_arg6]
  -- a vector of length 128 recast as one row of 128 reads, at (0, q), the vector at q
  exact shapeCast_a_1a_apply _ _ 0 q

/-! ## The transpose between the two aggregations -/

theorem keep_v50 (c : Dev nD) :
    W10 (F := Ideal) m ρ c (Proc.devRef .tc main_v50) = W9 (F := Ideal) m ρ c (Proc.devRef .tc main_v50) := by
  host_keep hostOps4

theorem wT2 (c : Dev nD) :
    W10 (F := Ideal) m ρ c (Proc.devRef .tc main_v51) = Cert.ReferenceIdeal.Read.val_main_v60 (F := Ideal) (m ((c : Thread nD τ).loc main_arg7)) := by
  dsimp only [W10]
  after_results
  rw [W9_arg7]
  unfold Cert.ReferenceIdeal.Read.val_main_v60
  rfl

/-! ## The second aggregation, and the bias reshaped beside it -/

set_option maxHeartbeats 4000000 in
theorem agg2 (c : Dev nD)
    (h : W11 (F := Ideal) m ρ c (Proc.devRef .tc main_v52) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W12 (F := Ideal) m ρ c (Proc.devRef .tc main_v65) = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W12]
  after_results_simp
  rw [h, W11_v8, W11_v11, W11_v33, HostEarly.src_eq, HostEarly.dst_eq, HostEarly.coef_eq]
  unfold Cert.ReferenceIdeal.Read.val_main_v74 Cert.ReferenceIdeal.Read.val_main_v73 Cert.ReferenceIdeal.Read.val_main_v72
    Cert.ReferenceIdeal.Read.val_main_v71 Cert.ReferenceIdeal.Read.val_main_v70 Cert.ReferenceIdeal.Read.val_main_v69
    Cert.ReferenceIdeal.Read.val_main_v68 Cert.ReferenceIdeal.Read.val_main_v67 Cert.ReferenceIdeal.Read.val_main_v66
    Cert.ReferenceIdeal.Read.val_main_v65 Cert.ReferenceIdeal.Read.val_main_v64 Cert.ReferenceIdeal.Read.val_main_v63
    Cert.ReferenceIdeal.Read.val_main_v62 Cert.ReferenceIdeal.Read.val_main_cst_12 Cert.ReferenceIdeal.Read.val_main_c_11
    Cert.ReferenceIdeal.Read.val_main_c_10
  generalize Cert.ReferenceIdeal.Read.val_main_v18 (F := Ideal) (m ((c : Thread nD τ).loc main_arg1)) = dst
  generalize Cert.ReferenceIdeal.Read.val_main_v15 (F := Ideal) (m ((c : Thread nD τ).loc main_arg1)) = src
  generalize Cert.ReferenceIdeal.Read.val_main_v40 (F := Ideal) (m ((c : Thread nD τ).loc main_arg1)) = coef
  generalize Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = feat
  rfl

set_option maxHeartbeats 4000000 in
theorem bias2_row (c : Dev nD) (q : Fin 128) :
    (W12 (F := Ideal) m ρ c (Proc.devRef .tc main_v66) : FVec Ideal S1x128 .f32) (ix2 (0 : Fin 1) q) = (m ((c : Thread nD τ).loc main_arg8)) (ix1 q) := by
  dsimp only [W12]
  after_results_simp
  rw [W11_arg8]
  exact shapeCast_a_1a_apply _ _ 0 q

end Cert.KernelIdeal.HostLate

end
-- ==== Proof.Chain.lean ====
/-
  The kernel's result, read stage by stage.

  Between the launch and the return the kernel's @main alternates stretches of host operations with its six
  calls. At each boundary the buffer that carries the node features holds the same array as the reference's
  corresponding stage of the arguments:
    the looked-up rows (under the token range), their projection, the bias added;
    then twice: the projection by the layer's weights, the sum over the incoming edges of the gathered and
    weighted rows (the same host operations in both programs, given equal features), the bias added — after
    the first round followed by the positive part.
  Each step is one call's whole-array value (a projection or a bias step of the spec) or one host stretch's
  stage, met from the other side by the reference's own stage read as the same spec function.
-/
import proofs.«428785_j38972533244082_1_alg».proof.Defs
import proofs.«428785_j38972533244082_1_alg».proof.Proof.Gen.KernelIdeal.Frame
import proofs.«428785_j38972533244082_1_alg».proof.Proof.Gen.ReferenceIdeal.Read
import proofs.«428785_j38972533244082_1_alg».proof.Proof.Spec
import proofs.«428785_j38972533244082_1_alg».proof.Proof.Dense0
import proofs.«428785_j38972533244082_1_alg».proof.Proof.Bias1
import proofs.«428785_j38972533244082_1_alg».proof.Proof.Dense2
import proofs.«428785_j38972533244082_1_alg».proof.Proof.Bias3
import proofs.«428785_j38972533244082_1_alg».proof.Proof.Dense4
import proofs.«428785_j38972533244082_1_alg».proof.Proof.Bias5
import proofs.«428785_j38972533244082_1_alg».proof.Proof.RefDense
import proofs.«428785_j38972533244082_1_alg».proof.Proof.Emb
import proofs.«428785_j38972533244082_1_alg».proof.Proof.HostEarly
import proofs.«428785_j38972533244082_1_alg».proof.Proof.HostLate
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

open scoped BigOperators

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx Idealize.ShloMosaic.Pipeline

variable (m : (ℓ : Loc nD τ sig) → Buf (Elt Ideal) ℓ) (ρ : Dev nD → PrngReg)

/-- The projected embedding rows: the first call's output is the reference's first product. -/
theorem feat0 (hpre : Cert.Pre_KernelIdeal m) (c : Dev nD) :
    W3 (F := Ideal) m ρ c (Proc.devRef .tc main_v2) = Cert.ReferenceIdeal.Read.val_main_v8 (F := Ideal) (m ((c : Thread nD τ).loc main_arg0)) (m ((c : Thread nD τ).loc main_arg2)) (m ((c : Thread nD τ).loc main_arg3)) := by
  refine (W3_arr m ρ c 2).trans ?_
  rw [Dense0.final]
  show GcnSpec.proj256 (W2 (F := Ideal) m ρ c (Proc.devRef .tc main_v0)) (W2 (F := Ideal) m ρ c (Proc.devRef .tc main_v1)) = _
  rw [Emb.emb_value m ρ hpre c, HostEarly.wT0 m ρ c, ← Cert.ReferenceIdeal.Dense.v8_eq]

/-- The node features: the second call adds the bias. -/
theorem feat1 (hpre : Cert.Pre_KernelIdeal m) (c : Dev nD) :
    W5 (F := Ideal) m ρ c (Proc.devRef .tc main_v4) = Cert.ReferenceIdeal.Read.val_main_v11 (F := Ideal) (m ((c : Thread nD τ).loc main_arg0)) (m ((c : Thread nD τ).loc main_arg2)) (m ((c : Thread nD τ).loc main_arg3)) (m ((c : Thread nD τ).loc main_arg4)) := by
  refine (W5_arr m ρ c 2).trans ?_
  rw [Bias1.final]
  show GcnSpec.addRow (W4 (F := Ideal) m ρ c (Proc.devRef .tc main_v2)) (W4 (F := Ideal) m ρ c (Proc.devRef .tc main_v3)) = _
  rw [GcnSpec.addRow_eq_addBias _ _ (m ((c : Thread nD τ).loc main_arg4)) (HostEarly.bias0_row m ρ c), HostEarly.keep_v2 m ρ c, feat0 m ρ hpre c, ← Cert.ReferenceIdeal.Dense.v11_eq]

/-- First layer, projected features. -/
theorem proj1 (hpre : Cert.Pre_KernelIdeal m) (c : Dev nD) :
    W7 (F := Ideal) m ρ c (Proc.devRef .tc main_v35) = Cert.ReferenceIdeal.Read.val_main_v42 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (W7_arr m ρ c 2).trans ?_
  rw [Dense2.final]
  show GcnSpec.proj128 (W6 (F := Ideal) m ρ c (Proc.devRef .tc main_v4)) (W6 (F := Ideal) m ρ c (Proc.devRef .tc main_v34)) = _
  rw [HostEarly.keep_v4 m ρ c, feat1 m ρ hpre c, HostEarly.wT1 m ρ c, ← Cert.ReferenceIdeal.Dense.v42_eq]

/-- First layer, after the bias and the positive part. -/
theorem layer1 (hpre : Cert.Pre_KernelIdeal m) (c : Dev nD) :
    W9 (F := Ideal) m ρ c (Proc.devRef .tc main_v50) = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ?_
  rw [Bias3.final]
  show GcnSpec.addRowRelu (W8 (F := Ideal) m ρ c (Proc.devRef .tc main_v48)) (W8 (F := Ideal) m ρ c (Proc.devRef .tc main_v49)) = _
  rw [GcnSpec.addRowRelu_eq_addBiasRelu _ _ (m ((c : Thread nD τ).loc main_arg6)) (HostLate.bias1_row m ρ c), HostLate.agg1 m ρ c (proj1 m ρ hpre c), ← Cert.ReferenceIdeal.Dense.v59_eq]

/-- Second layer, projected features. -/
theorem proj2 (hpre : Cert.Pre_KernelIdeal m) (c : Dev nD) :
    W11 (F := Ideal) m ρ c (Proc.devRef .tc main_v52) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 2).trans ?_
  rw [Dense4.final]
  show GcnSpec.proj128 (W10 (F := Ideal) m ρ c (Proc.devRef .tc main_v50)) (W10 (F := Ideal) m ρ c (Proc.devRef .tc main_v51)) = _
  rw [HostLate.keep_v50 m ρ c, layer1 m ρ hpre c, HostLate.wT2 m ρ c, ← Cert.ReferenceIdeal.Dense.v61_eq]

/-- The result array at the return is the reference's last stage of the arguments. -/
theorem out_value (hpre : Cert.Pre_KernelIdeal m) (c : Dev nD) :
    W13 (F := Ideal) m ρ c (Proc.devRef .tc main_v67) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 2).trans ?_
  rw [Bias5.final]
  show GcnSpec.addRow (W12 (F := Ideal) m ρ c (Proc.devRef .tc main_v65)) (W12 (F := Ideal) m ρ c (Proc.devRef .tc main_v66)) = _
  rw [GcnSpec.addRow_eq_addBias _ _ (m ((c : Thread nD τ).loc main_arg8)) (HostLate.bias2_row m ρ c), HostLate.agg2 m ρ c (proj2 m ρ hpre c), ← Cert.ReferenceIdeal.Dense.v77_eq]

end Cert.KernelIdeal.Chain

end
-- ==== Proof.lean ====
/-
  The certificate of the two-layer graph convolution: the kernel's six calls among host operations against the
  plain reference, equal as extended reals on every input whose float arrays are finite and whose node tokens
  index the embedding table (0 ≤ token < 50000).

  Both programs look a node's token up in the table, project the 256 features to 128 and add a bias; compute
  from the edge list (with a self loop per node) the degrees, their inverse square roots and a coefficient per
  edge; and twice project the features, gather them along the edges, weight them, sum them into the
  destination nodes and add a bias, with the positive part between the two rounds. The kernel runs the three
  projections and the three bias steps as calls over blocks of 4000 rows; everything on the edge list is the
  same host operations in both programs and is never opened here. The token range is needed once: the kernel's
  lookup replaces the row of an out-of-range token by a fill value, the reference's clamps it.

  The frames are the generated ones (the reference's is its run with the result dropped); nothing was
  idealized away, so `preserves` is trivial; `algebraic` puts the kernel's run, its result read stage by stage
  (`Chain.out_value`), beside the reference's run.
-/
import proofs.«428785_j38972533244082_1_alg».proof.Defs
import proofs.«428785_j38972533244082_1_alg».proof.Proof.Gen.Kernel
import proofs.«428785_j38972533244082_1_alg».proof.Proof.Gen.Kernel.Skeleton
import proofs.«428785_j38972533244082_1_alg».proof.Proof.Gen.Kernel.Launch
import proofs.«428785_j38972533244082_1_alg».proof.Proof.Gen.Kernel.Points
import proofs.«428785_j38972533244082_1_alg».proof.Proof.Gen.Kernel.Frame
import proofs.«428785_j38972533244082_1_alg».proof.Proof.Gen.KernelIdeal
import proofs.«428785_j38972533244082_1_alg».proof.Proof.Gen.KernelIdeal.Skeleton
import proofs.«428785_j38972533244082_1_alg».proof.Proof.Gen.KernelIdeal.Launch
import proofs.«428785_j38972533244082_1_alg».proof.Proof.Gen.KernelIdeal.Points
import proofs.«428785_j38972533244082_1_alg».proof.Proof.Gen.KernelIdeal.Frame
import proofs.«428785_j38972533244082_1_alg».proof.Proof.Gen.ReferenceIdeal
import proofs.«428785_j38972533244082_1_alg».proof.Proof.Gen.Pre_finite_inputs
import proofs.«428785_j38972533244082_1_alg».proof.Proof.Gen.ReferenceIdeal.Run
import proofs.«428785_j38972533244082_1_alg».proof.Proof.Gen.ReferenceIdeal.Read
import proofs.«428785_j38972533244082_1_alg».proof.Proof.KernelRun
import proofs.«428785_j38972533244082_1_alg».proof.Proof.Chain
import Idealize.ShloMosaic.Adequacy
import Idealize.ShloMosaic.Init

noncomputable section

namespace Cert.Proof

open Idealize.ShloMosaic Idealize.ShloMosaic.TcCoe Idealize.SL.Sem

/-- Run from memories that agree on the arguments, both idealized programs end with the result array at the
    reference's last stage of the arguments. -/
theorem algebraic : Cert.algebraic_KernelIdeal_ReferenceIdeal := by
  intro m ρ m' ρ' hpre hagree
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run (Cert.KernelIdeal.defs (F := Ideal)) _ _).mono
      (fun r h c => ⟨(h c).1.trans (Cert.KernelIdeal.Chain.out_value m ρ hpre c), (h c).2⟩) (Cert.KernelIdeal.Launch.run_W13 m ρ)
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v77_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
